-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x128 : Shape := ⟨2, ![12288, 128]⟩
abbrev S2x393216 : Shape := ⟨2, ![2, 393216]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S12288x128 : S_.BroadcastsInDim S12288x128 (![] : Fin 0 → Fin S12288x128.rank)
  reducesTo_S12288x128_S_d0_1 : S12288x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S12288x128 .f32) (main_arg1 : IVec S2x393216 32) (main_arg2 : FVec F S128x128 .f32) (main_arg3 : FVec F S128 .f32) (main_arg4 : FVec F S128x64 .f32) (main_arg5 : FVec F S64 .f32) : IVec S_ 1 :=
  let main_v0 : FVec F S12288x128 .f32 := Host.absf main_arg0
  let main_cst : FVec F S_ .f32 := constant S_ .f32 0x7F800000#32
  let main_v1 : FVec F S12288x128 .f32 := broadcastInDim S12288x128 ![] bcast_S_S12288x128 main_cst
  let main_v2 : IVec S12288x128 1 := cmpf .olt main_v0 main_v1
  let main_c : IVec S_ 1 := constantI S_ 1 1#1
  let main_v3 : IVec S_ 1 := (fun x v => Host.reduce IntOp.andi x v reducesTo_S12288x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S12288x128 : Shape := ⟨2, ![12288, 128]⟩
abbrev S2x393216 : Shape := ⟨2, ![2, 393216]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1536x128 : Shape := ⟨2, ![1536, 128]⟩
abbrev S1x393216 : Shape := ⟨2, ![1, 393216]⟩
abbrev S393216 : Shape := ⟨1, ![393216]⟩
abbrev S12288 : Shape := ⟨1, ![12288]⟩
abbrev S405504 : Shape := ⟨1, ![405504]⟩
abbrev S_ : Shape := ⟨0, ![]⟩
abbrev S405504x1 : Shape := ⟨2, ![405504, 1]⟩
abbrev S405504x128 : Shape := ⟨2, ![405504, 128]⟩
abbrev S1x128 : Shape := ⟨2, ![1, 128]⟩
abbrev S12288x64 : Shape := ⟨2, ![12288, 64]⟩
abbrev S1536x64 : Shape := ⟨2, ![1536, 64]⟩
abbrev S405504x64 : Shape := ⟨2, ![405504, 64]⟩
abbrev S1x64 : Shape := ⟨2, ![1, 64]⟩
abbrev S12288x12288 : Shape := ⟨2, ![12288, 12288]⟩
abbrev S1536x1536 : Shape := ⟨2, ![1536, 1536]⟩

abbrev nBuf : Space → Nat
  | .hbm => 122
  | .vmem => 16
  | .smem => 0
  | _ => 0

abbrev bufTy : (tb : Table) → Fin (tcTables nBuf tb) → BufTy
  | .hbm, ⟨0, _⟩ => ⟨S12288x128, .f32⟩
  | .hbm, ⟨1, _⟩ => ⟨S2x393216, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S12288x128, .f32⟩
  | .hbm, ⟨7, _⟩ => ⟨S1x393216, .i32⟩
  | .hbm, ⟨8, _⟩ => ⟨S393216, .i32⟩
  | .hbm, ⟨9, _⟩ => ⟨S1x393216, .i32⟩
  | .hbm, ⟨10, _⟩ => ⟨S393216, .i32⟩
  | .hbm, ⟨11, _⟩ => ⟨S12288, .i32⟩
  | .hbm, ⟨12, _⟩ => ⟨S405504, .i32⟩
  | .hbm, ⟨13, _⟩ => ⟨S405504, .i32⟩
  | .hbm, ⟨14, _⟩ => ⟨S_, .f32⟩
  | .hbm, ⟨15, _⟩ => ⟨S405504, .f32⟩
  | .hbm, ⟨16, _⟩ => ⟨S_, .f32⟩
  | .hbm, ⟨17, _⟩ => ⟨S12288, .f32⟩
  | .hbm, ⟨18, _⟩ => ⟨S405504x1, .i32⟩
  | .hbm, ⟨19, _⟩ => ⟨S12288, .f32⟩
  | .hbm, ⟨20, _⟩ => ⟨S_, .f32⟩
  | .hbm, ⟨21, _⟩ => ⟨S12288, .f32⟩
  | .hbm, ⟨22, _⟩ => ⟨S12288, .f32⟩
  | .hbm, ⟨23, _⟩ => ⟨S12288, .f32⟩
  | .hbm, ⟨24, _⟩ => ⟨S_, .i32⟩
  | .hbm, ⟨25, _⟩ => ⟨S405504, .i32⟩
  | .hbm, ⟨26, _⟩ => ⟨S405504, .i1⟩
  | .hbm, ⟨27, _⟩ => ⟨S_, .i32⟩
  | .hbm, ⟨28, _⟩ => ⟨S405504, .i32⟩
  | .hbm, ⟨29, _⟩ => ⟨S405504, .i32⟩
  | .hbm, ⟨30, _⟩ => ⟨S405504, .i32⟩
  | .hbm, ⟨31, _⟩ => ⟨S405504x1, .i32⟩
  | .hbm, ⟨32, _⟩ => ⟨S405504, .f32⟩
  | .hbm, ⟨33, _⟩ => ⟨S_, .i32⟩
  | .hbm, ⟨34, _⟩ => ⟨S405504, .i32⟩
  | .hbm, ⟨35, _⟩ => ⟨S405504, .i1⟩
  | .hbm, ⟨36, _⟩ => ⟨S_, .i32⟩
  | .hbm, ⟨37, _⟩ => ⟨S405504, .i32⟩
  | .hbm, ⟨38, _⟩ => ⟨S405504, .i32⟩
  | .hbm, ⟨39, _⟩ => ⟨S405504, .i32⟩
  | .hbm, ⟨40, _⟩ => ⟨S405504x1, .i32⟩
  | .hbm, ⟨41, _⟩ => ⟨S405504, .f32⟩
  | .hbm, ⟨42, _⟩ => ⟨S405504, .f32⟩
  | .hbm, ⟨43, _⟩ => ⟨S_, .i32⟩
  | .hbm, ⟨44, _⟩ => ⟨S405504, .i32⟩
  | .hbm, ⟨45, _⟩ => ⟨S405504, .i1⟩
  | .hbm, ⟨46, _⟩ => ⟨S_, .i32⟩
  | .hbm, ⟨47, _⟩ => ⟨S405504, .i32⟩
  | .hbm, ⟨48, _⟩ => ⟨S405504, .i32⟩
  | .hbm, ⟨49, _⟩ => ⟨S405504, .i32⟩
  | .hbm, ⟨50, _⟩ => ⟨S405504x1, .i32⟩
  | .hbm, ⟨51, _⟩ => ⟨S405504x128, .f32⟩
  | .hbm, ⟨52, _⟩ => ⟨S405504x1, .f32⟩
  | .hbm, ⟨53, _⟩ => ⟨S405504x128, .f32⟩
  | .hbm, ⟨54, _⟩ => ⟨S405504x128, .f32⟩
  | .hbm, ⟨55, _⟩ => ⟨S_, .f32⟩
  | .hbm, ⟨56, _⟩ => ⟨S12288x128, .f32⟩
  | .hbm, ⟨57, _⟩ => ⟨S405504x1, .i32⟩
  | .hbm, ⟨58, _⟩ => ⟨S12288x128, .f32⟩
  | .hbm, ⟨59, _⟩ => ⟨S1x128, .f32⟩
  | .hbm, ⟨60, _⟩ => ⟨S12288x128, .f32⟩
  | .hbm, ⟨61, _⟩ => ⟨S12288x128, .f32⟩
  | .hbm, ⟨62, _⟩ => ⟨S_, .f32⟩
  | .hbm, ⟨63, _⟩ => ⟨S12288x128, .f32⟩
  | .hbm, ⟨64, _⟩ => ⟨S12288x128, .f32⟩
  | .hbm, ⟨65, _⟩ => ⟨S12288x64, .f32⟩
  | .hbm, ⟨66, _⟩ => ⟨S1x393216, .i32⟩
  | .hbm, ⟨67, _⟩ => ⟨S393216, .i32⟩
  | .hbm, ⟨68, _⟩ => ⟨S1x393216, .i32⟩
  | .hbm, ⟨69, _⟩ => ⟨S393216, .i32⟩
  | .hbm, ⟨70, _⟩ => ⟨S12288, .i32⟩
  | .hbm, ⟨71, _⟩ => ⟨S405504, .i32⟩
  | .hbm, ⟨72, _⟩ => ⟨S405504, .i32⟩
  | .hbm, ⟨73, _⟩ => ⟨S_, .f32⟩
  | .hbm, ⟨74, _⟩ => ⟨S405504, .f32⟩
  | .hbm, ⟨75, _⟩ => ⟨S_, .f32⟩
  | .hbm, ⟨76, _⟩ => ⟨S12288, .f32⟩
  | .hbm, ⟨77, _⟩ => ⟨S405504x1, .i32⟩
  | .hbm, ⟨78, _⟩ => ⟨S12288, .f32⟩
  | .hbm, ⟨79, _⟩ => ⟨S_, .f32⟩
  | .hbm, ⟨80, _⟩ => ⟨S12288, .f32⟩
  | .hbm, ⟨81, _⟩ => ⟨S12288, .f32⟩
  | .hbm, ⟨82, _⟩ => ⟨S12288, .f32⟩
  | .hbm, ⟨83, _⟩ => ⟨S_, .i32⟩
  | .hbm, ⟨84, _⟩ => ⟨S405504, .i32⟩
  | .hbm, ⟨85, _⟩ => ⟨S405504, .i1⟩
  | .hbm, ⟨86, _⟩ => ⟨S_, .i32⟩
  | .hbm, ⟨87, _⟩ => ⟨S405504, .i32⟩
  | .hbm, ⟨88, _⟩ => ⟨S405504, .i32⟩
  | .hbm, ⟨89, _⟩ => ⟨S405504, .i32⟩
  | .hbm, ⟨90, _⟩ => ⟨S405504x1, .i32⟩
  | .hbm, ⟨91, _⟩ => ⟨S405504, .f32⟩
  | .hbm, ⟨92, _⟩ => ⟨S_, .i32⟩
  | .hbm, ⟨93, _⟩ => ⟨S405504, .i32⟩
  | .hbm, ⟨94, _⟩ => ⟨S405504, .i1⟩
  | .hbm, ⟨95, _⟩ => ⟨S_, .i32⟩
  | .hbm, ⟨96, _⟩ => ⟨S405504, .i32⟩
  | .hbm, ⟨97, _⟩ => ⟨S405504, .i32⟩
  | .hbm, ⟨98, _⟩ => ⟨S405504, .i32⟩
  | .hbm, ⟨99, _⟩ => ⟨S405504x1, .i32⟩
  | .hbm, ⟨100, _⟩ => ⟨S405504, .f32⟩
  | .hbm, ⟨101, _⟩ => ⟨S405504, .f32⟩
  | .hbm, ⟨102, _⟩ => ⟨S_, .i32⟩
  | .hbm, ⟨103, _⟩ => ⟨S405504, .i32⟩
  | .hbm, ⟨104, _⟩ => ⟨S405504, .i1⟩
  | .hbm, ⟨105, _⟩ => ⟨S_, .i32⟩
  | .hbm, ⟨106, _⟩ => ⟨S405504, .i32⟩
  | .hbm, ⟨107, _⟩ => ⟨S405504, .i32⟩
  | .hbm, ⟨108, _⟩ => ⟨S405504, .i32⟩
  | .hbm, ⟨109, _⟩ => ⟨S405504x1, .i32⟩
  | .hbm, ⟨110, _⟩ => ⟨S405504x64, .f32⟩
  | .hbm, ⟨111, _⟩ => ⟨S405504x1, .f32⟩
  | .hbm, ⟨112, _⟩ => ⟨S405504x64, .f32⟩
  | .hbm, ⟨113, _⟩ => ⟨S405504x64, .f32⟩
  | .hbm, ⟨114, _⟩ => ⟨S_, .f32⟩
  | .hbm, ⟨115, _⟩ => ⟨S12288x64, .f32⟩
  | .hbm, ⟨116, _⟩ => ⟨S405504x1, .i32⟩
  | .hbm, ⟨117, _⟩ => ⟨S12288x64, .f32⟩
  | .hbm, ⟨118, _⟩ => ⟨S1x64, .f32⟩
  | .hbm, ⟨119, _⟩ => ⟨S12288x64, .f32⟩
  | .hbm, ⟨120, _⟩ => ⟨S12288x64, .f32⟩
  | .hbm, ⟨121, _⟩ => ⟨S12288x12288, .f32⟩
  | .local _ .vmem, ⟨0, _⟩ => ⟨S1536x128, .f32⟩
  | .local _ .vmem, ⟨1, _⟩ => ⟨S1536x128, .f32⟩
  | .local _ .vmem, ⟨2, _⟩ => ⟨S128x128, .f32⟩
  | .local _ .vmem, ⟨3, _⟩ => ⟨S1536x128, .f32⟩
  | .local _ .vmem, ⟨4, _⟩ => ⟨S1536x128, .f32⟩
  | .local _ .vmem, ⟨5, _⟩ => ⟨S1536x128, .f32⟩
  | .local _ .vmem, ⟨6, _⟩ => ⟨S1536x128, .f32⟩
  | .local _ .vmem, ⟨7, _⟩ => ⟨S128x64, .f32⟩
  | .local _ .vmem, ⟨8, _⟩ => ⟨S1536x64, .f32⟩
  | .local _ .vmem, ⟨9, _⟩ => ⟨S1536x64, .f32⟩
  | .local _ .vmem, ⟨10, _⟩ => ⟨S1536x64, .f32⟩
  | .local _ .vmem, ⟨11, _⟩ => ⟨S1536x64, .f32⟩
  | .local _ .vmem, ⟨12, _⟩ => ⟨S1536x64, .f32⟩
  | .local _ .vmem, ⟨13, _⟩ => ⟨S1536x64, .f32⟩
  | .local _ .vmem, ⟨14, _⟩ => ⟨S1536x1536, .f32⟩
  | .local _ .vmem, ⟨15, _⟩ => ⟨S1536x1536, .f32⟩
  | _, _ => ⟨S12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_11 : Ref sig .tc := ⟨.hbm, 83, rfl⟩
abbrev main_v62 : Ref sig .tc := ⟨.hbm, 84, rfl⟩
abbrev main_v63 : Ref sig .tc := ⟨.hbm, 85, rfl⟩
abbrev main_c_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_15 : Ref sig .tc := ⟨.hbm, 102, rfl⟩
abbrev main_v77 : Ref sig .tc := ⟨.hbm, 103, rfl⟩
abbrev main_v78 : Ref sig .tc := ⟨.hbm, 104, rfl⟩
abbrev main_c_16 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_17 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1536x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1536x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1536x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1536x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1536x1536 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S1536x128_S1536x128_0_0 : ∀ a, (![0, 0] : Fin 2 → Nat) a + S1536x128.size a ≤ S1536x128.size a
  h_S1536x128 : 0 < S1536x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x393216_S1x393216_0_0 : S2x393216.Slices ![0, 0] S1x393216
  shapeCasts_S1x393216_S393216 : S1x393216.ShapeCasts S393216
  slices_S2x393216_S1x393216_1_0 : S2x393216.Slices ![1, 0] S1x393216
  concatenates_S393216_S12288_S405504_d0 : Shape.Concatenates [S393216, S12288] S405504 0
  bcast_S_S405504 : S_.BroadcastsInDim S405504 (![] : Fin 0 → Fin S405504.rank)
  bcast_S_S12288 : S_.BroadcastsInDim S12288 (![] : Fin 0 → Fin S12288.rank)
  bcast_S405504_S405504x1_0 : S405504.BroadcastsInDim S405504x1 (![0] : Fin 1 → Fin S405504x1.rank)
  bcast_S405504x1_S405504x128_0_1 : S405504x1.BroadcastsInDim S405504x128 (![0, 1] : Fin 2 → Fin S405504x128.rank)
  bcast_S_S12288x128 : S_.BroadcastsInDim S12288x128 (![] : Fin 0 → Fin S12288x128.rank)
  bcast_S128_S1x128_1 : S128.BroadcastsInDim S1x128 (![1] : Fin 1 → Fin S1x128.rank)
  bcast_S1x128_S12288x128_0_1 : S1x128.BroadcastsInDim S12288x128 (![0, 1] : Fin 2 → Fin S12288x128.rank)
  shapeCasts_S1536x128_S1536x128 : S1536x128.ShapeCasts S1536x128
  inb_S128x64_S128x64_0_0 : ∀ a, (![0, 0] : Fin 2 → Nat) a + S128x64.size a ≤ S128x64.size a
  h_S128x64 : 0 < S128x64.numel
  inb_S1536x64_S1536x64_0_0 : ∀ a, (![0, 0] : Fin 2 → Nat) a + S1536x64.size a ≤ S1536x64.size a
  h_S1536x64 : 0 < S1536x64.numel
  bcast_S405504x1_S405504x64_0_1 : S405504x1.BroadcastsInDim S405504x64 (![0, 1] : Fin 2 → Fin S405504x64.rank)
  bcast_S_S12288x64 : S_.BroadcastsInDim S12288x64 (![] : Fin 0 → Fin S12288x64.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  shapeCasts_S1536x64_S1536x64 : S1536x64.ShapeCasts S1536x64
  inb_S1536x1536_S1536x1536_0_0 : ∀ a, (![0, 0] : Fin 2 → Nat) a + S1536x1536.size a ≤ S1536x1536.size a
  h_S1536x1536 : 0 < S1536x1536.numel
  dot_S1536x128_S128x128_S1536x128_1_0_0_1_n_n_wf : DotDims.WF S1536x128 S128x128 S1536x128 [1] [0] [0] [1] [] []
  scatter_S12288_S405504x1_S405504_n_0_0_1_wf : ScatterDims.WF S12288 S405504x1 S405504 [] [0] [0] 1
  gather_S12288_S405504x1_S405504_n_0_n_n_0_1_1_wf : GatherDims.WF S12288 S405504x1 S405504 [] [0] [] [0] [] 1 ![1]
  gather_S12288x128_S405504x1_S405504x128_1_0_n_n_0_1_1128_wf : GatherDims.WF S12288x128 S405504x1 S405504x128 [1] [0] [] [0] [] 1 ![1, 128]
  scatter_S12288x128_S405504x1_S405504x128_1_0_0_1_wf : ScatterDims.WF S12288x128 S405504x1 S405504x128 [1] [0] [0] 1
  dot_S1536x128_S128x64_S1536x64_1_0_0_1_n_n_wf : DotDims.WF S1536x128 S128x64 S1536x64 [1] [0] [0] [1] [] []
  gather_S12288x64_S405504x1_S405504x64_1_0_n_n_0_1_164_wf : GatherDims.WF S12288x64 S405504x1 S405504x64 [1] [0] [] [0] [] 1 ![1, 64]
  scatter_S12288x64_S405504x1_S405504x64_1_0_0_1_wf : ScatterDims.WF S12288x64 S405504x1 S405504x64 [1] [0] [0] 1
  dot_S1536x64_S1536x64_S1536x1536_1_1_0_0_n_n_wf : DotDims.WF S1536x64 S1536x64 S1536x1536 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1536x128.size a ≤ S12288x128.size a
  hwx0_0 : ∀ i : grid0.Coords, EltTy.bits .f32 = 32 ∨ (Rect.block (s := S12288x128) S1536x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1536x128.size a ≤ S12288x128.size a
  hwx0_2 : ∀ i : grid0.Coords, EltTy.bits .f32 = 32 ∨ (Rect.block (s := S12288x128) S1536x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1536x128.size a ≤ S12288x128.size a
  hwx1_0 : ∀ i : grid1.Coords, EltTy.bits .f32 = 32 ∨ (Rect.block (s := S12288x128) S1536x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1536x64.size a ≤ S12288x64.size a
  hwx1_2 : ∀ i : grid1.Coords, EltTy.bits .f32 = 32 ∨ (Rect.block (s := S12288x64) S1536x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1536x64.size a ≤ S12288x64.size a
  hwx2_0 : ∀ i : grid2.Coords, EltTy.bits .f32 = 32 ∨ (Rect.block (s := S12288x64) S1536x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1536x64.size a ≤ S12288x64.size a
  hwx2_1 : ∀ i : grid2.Coords, EltTy.bits .f32 = 32 ∨ (Rect.block (s := S12288x64) S1536x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1536x1536.size a ≤ S12288x12288.size a
  hwx2_2 : ∀ i : grid2.Coords, EltTy.bits .f32 = 32 ∨ (Rect.block (s := S12288x12288) S1536x1536.size (cc2_transform_2 i) (hinb2_2 i)).WholeWords (EltTy.packing .f32)

variable [Facts₀]

def dot_S1536x128_S128x128_S1536x128_1_0_0_1_n_n : DotDims S1536x128 S128x128 S1536x128 where
  lhsContracting := [1]
  rhsContracting := [0]
  lhsNonContracting := [0]
  rhsNonContracting := [1]
  lhsBatch := []
  rhsBatch := []
  wf := dot_S1536x128_S128x128_S1536x128_1_0_0_1_n_n_wf
def scatter_S12288_S405504x1_S405504_n_0_0_1 : ScatterDims S12288 S405504x1 S405504 where
  updateWindowDims := []
  insertedWindowDims := [0]
  scatterDimsToOperandDims := [0]
  indexVectorDim := 1
  wf := scatter_S12288_S405504x1_S405504_n_0_0_1_wf
def gather_S12288_S405504x1_S405504_n_0_n_n_0_1_1 : GatherDims S12288 S405504x1 S405504 where
  offsetDims := []
  collapsedSliceDims := [0]
  operandBatchingDims := []
  startIndicesBatchingDims := []
  startIndexMap := [0]
  indexVectorDim := 1
  sliceSizes := ![1]
  wf := gather_S12288_S405504x1_S405504_n_0_n_n_0_1_1_wf
def gather_S12288x128_S405504x1_S405504x128_1_0_n_n_0_1_1128 : GatherDims S12288x128 S405504x1 S405504x128 where
  offsetDims := [1]
  collapsedSliceDims := [0]
  operandBatchingDims := []
  startIndicesBatchingDims := []
  startIndexMap := [0]
  indexVectorDim := 1
  sliceSizes := ![1, 128]
  wf := gather_S12288x128_S405504x1_S405504x128_1_0_n_n_0_1_1128_wf
def scatter_S12288x128_S405504x1_S405504x128_1_0_0_1 : ScatterDims S12288x128 S405504x1 S405504x128 where
  updateWindowDims := [1]
  insertedWindowDims := [0]
  scatterDimsToOperandDims := [0]
  indexVectorDim := 1
  wf := scatter_S12288x128_S405504x1_S405504x128_1_0_0_1_wf
def dot_S1536x128_S128x64_S1536x64_1_0_0_1_n_n : DotDims S1536x128 S128x64 S1536x64 where
  lhsContracting := [1]
  rhsContracting := [0]
  lhsNonContracting := [0]
  rhsNonContracting := [1]
  lhsBatch := []
  rhsBatch := []
  wf := dot_S1536x128_S128x64_S1536x64_1_0_0_1_n_n_wf
def gather_S12288x64_S405504x1_S405504x64_1_0_n_n_0_1_164 : GatherDims S12288x64 S405504x1 S405504x64 where
  offsetDims := [1]
  collapsedSliceDims := [0]
  operandBatchingDims := []
  startIndicesBatchingDims := []
  startIndexMap := [0]
  indexVectorDim := 1
  sliceSizes := ![1, 64]
  wf := gather_S12288x64_S405504x1_S405504x64_1_0_n_n_0_1_164_wf
def scatter_S12288x64_S405504x1_S405504x64_1_0_0_1 : ScatterDims S12288x64 S405504x1 S405504x64 where
  updateWindowDims := [1]
  insertedWindowDims := [0]
  scatterDimsToOperandDims := [0]
  indexVectorDim := 1
  wf := scatter_S12288x64_S405504x1_S405504x64_1_0_0_1_wf
def dot_S1536x64_S1536x64_S1536x1536_1_1_0_0_n_n : DotDims S1536x64 S1536x64 S1536x1536 where
  lhsContracting := [1]
  rhsContracting := [1]
  lhsNonContracting := [0]
  rhsNonContracting := [0]
  lhsBatch := []
  rhsBatch := []
  wf := dot_S1536x64_S1536x64_S1536x1536_1_1_0_0_n_n_wf

abbrev win0_0 : Pipeline.Window sig grid0 :=
  Pipeline.Window.ofSpec (Memref.whole main_arg0) S1536x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1536x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S1536x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1536x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v92) S1536x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v92) S1536x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v93) S1536x1536.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S12288x128 : Shape := ⟨2, ![12288, 128]⟩
abbrev S2x393216 : Shape := ⟨2, ![2, 393216]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x393216 : Shape := ⟨2, ![1, 393216]⟩
abbrev S393216 : Shape := ⟨1, ![393216]⟩
abbrev S12288 : Shape := ⟨1, ![12288]⟩
abbrev S405504 : Shape := ⟨1, ![405504]⟩
abbrev S_ : Shape := ⟨0, ![]⟩
abbrev S405504x1 : Shape := ⟨2, ![405504, 1]⟩
abbrev S405504x128 : Shape := ⟨2, ![405504, 128]⟩
abbrev S1x128 : Shape := ⟨2, ![1, 128]⟩
abbrev S12288x64 : Shape := ⟨2, ![12288, 64]⟩
abbrev S405504x64 : Shape := ⟨2, ![405504, 64]⟩
abbrev S1x64 : Shape := ⟨2, ![1, 64]⟩
abbrev S64x12288 : Shape := ⟨2, ![64, 12288]⟩
abbrev S12288x12288 : Shape := ⟨2, ![12288, 12288]⟩

abbrev nBuf : Space → Nat
  | .hbm => 123
  | .vmem => 0
  | .smem => 0
  | _ => 0

abbrev bufTy : (tb : Table) → Fin (tcTables nBuf tb) → BufTy
  | .hbm, ⟨0, _⟩ => ⟨S12288x128, .f32⟩
  | .hbm, ⟨1, _⟩ => ⟨S2x393216, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S12288x128, .f32⟩
  | .hbm, ⟨7, _⟩ => ⟨S1x393216, .i32⟩
  | .hbm, ⟨8, _⟩ => ⟨S393216, .i32⟩
  | .hbm, ⟨9, _⟩ => ⟨S1x393216, .i32⟩
  | .hbm, ⟨10, _⟩ => ⟨S393216, .i32⟩
  | .hbm, ⟨11, _⟩ => ⟨S12288, .i32⟩
  | .hbm, ⟨12, _⟩ => ⟨S405504, .i32⟩
  | .hbm, ⟨13, _⟩ => ⟨S405504, .i32⟩
  | .hbm, ⟨14, _⟩ => ⟨S_, .f32⟩
  | .hbm, ⟨15, _⟩ => ⟨S405504, .f32⟩
  | .hbm, ⟨16, _⟩ => ⟨S_, .f32⟩
  | .hbm, ⟨17, _⟩ => ⟨S12288, .f32⟩
  | .hbm, ⟨18, _⟩ => ⟨S405504x1, .i32⟩
  | .hbm, ⟨19, _⟩ => ⟨S12288, .f32⟩
  | .hbm, ⟨20, _⟩ => ⟨S_, .f32⟩
  | .hbm, ⟨21, _⟩ => ⟨S12288, .f32⟩
  | .hbm, ⟨22, _⟩ => ⟨S12288, .f32⟩
  | .hbm, ⟨23, _⟩ => ⟨S12288, .f32⟩
  | .hbm, ⟨24, _⟩ => ⟨S_, .i32⟩
  | .hbm, ⟨25, _⟩ => ⟨S405504, .i32⟩
  | .hbm, ⟨26, _⟩ => ⟨S405504, .i1⟩
  | .hbm, ⟨27, _⟩ => ⟨S_, .i32⟩
  | .hbm, ⟨28, _⟩ => ⟨S405504, .i32⟩
  | .hbm, ⟨29, _⟩ => ⟨S405504, .i32⟩
  | .hbm, ⟨30, _⟩ => ⟨S405504, .i32⟩
  | .hbm, ⟨31, _⟩ => ⟨S405504x1, .i32⟩
  | .hbm, ⟨32, _⟩ => ⟨S405504, .f32⟩
  | .hbm, ⟨33, _⟩ => ⟨S_, .i32⟩
  | .hbm, ⟨34, _⟩ => ⟨S405504, .i32⟩
  | .hbm, ⟨35, _⟩ => ⟨S405504, .i1⟩
  | .hbm, ⟨36, _⟩ => ⟨S_, .i32⟩
  | .hbm, ⟨37, _⟩ => ⟨S405504, .i32⟩
  | .hbm, ⟨38, _⟩ => ⟨S405504, .i32⟩
  | .hbm, ⟨39, _⟩ => ⟨S405504, .i32⟩
  | .hbm, ⟨40, _⟩ => ⟨S405504x1, .i32⟩
  | .hbm, ⟨41, _⟩ => ⟨S405504, .f32⟩
  | .hbm, ⟨42, _⟩ => ⟨S405504, .f32⟩
  | .hbm, ⟨43, _⟩ => ⟨S_, .i32⟩
  | .hbm, ⟨44, _⟩ => ⟨S405504, .i32⟩
  | .hbm, ⟨45, _⟩ => ⟨S405504, .i1⟩
  | .hbm, ⟨46, _⟩ => ⟨S_, .i32⟩
  | .hbm, ⟨47, _⟩ => ⟨S405504, .i32⟩
  | .hbm, ⟨48, _⟩ => ⟨S405504, .i32⟩
  | .hbm, ⟨49, _⟩ => ⟨S405504, .i32⟩
  | .hbm, ⟨50, _⟩ => ⟨S405504x1, .i32⟩
  | .hbm, ⟨51, _⟩ => ⟨S405504x128, .f32⟩
  | .hbm, ⟨52, _⟩ => ⟨S405504x1, .f32⟩
  | .hbm, ⟨53, _⟩ => ⟨S405504x128, .f32⟩
  | .hbm, ⟨54, _⟩ => ⟨S405504x128, .f32⟩
  | .hbm, ⟨55, _⟩ => ⟨S_, .f32⟩
  | .hbm, ⟨56, _⟩ => ⟨S12288x128, .f32⟩
  | .hbm, ⟨57, _⟩ => ⟨S405504x1, .i32⟩
  | .hbm, ⟨58, _⟩ => ⟨S12288x128, .f32⟩
  | .hbm, ⟨59, _⟩ => ⟨S1x128, .f32⟩
  | .hbm, ⟨60, _⟩ => ⟨S12288x128, .f32⟩
  | .hbm, ⟨61, _⟩ => ⟨S12288x128, .f32⟩
  | .hbm, ⟨62, _⟩ => ⟨S_, .f32⟩
  | .hbm, ⟨63, _⟩ => ⟨S12288x128, .f32⟩
  | .hbm, ⟨64, _⟩ => ⟨S12288x128, .f32⟩
  | .hbm, ⟨65, _⟩ => ⟨S12288x64, .f32⟩
  | .hbm, ⟨66, _⟩ => ⟨S1x393216, .i32⟩
  | .hbm, ⟨67, _⟩ => ⟨S393216, .i32⟩
  | .hbm, ⟨68, _⟩ => ⟨S1x393216, .i32⟩
  | .hbm, ⟨69, _⟩ => ⟨S393216, .i32⟩
  | .hbm, ⟨70, _⟩ => ⟨S12288, .i32⟩
  | .hbm, ⟨71, _⟩ => ⟨S405504, .i32⟩
  | .hbm, ⟨72, _⟩ => ⟨S405504, .i32⟩
  | .hbm, ⟨73, _⟩ => ⟨S_, .f32⟩
  | .hbm, ⟨74, _⟩ => ⟨S405504, .f32⟩
  | .hbm, ⟨75, _⟩ => ⟨S_, .f32⟩
  | .hbm, ⟨76, _⟩ => ⟨S12288, .f32⟩
  | .hbm, ⟨77, _⟩ => ⟨S405504x1, .i32⟩
  | .hbm, ⟨78, _⟩ => ⟨S12288, .f32⟩
  | .hbm, ⟨79, _⟩ => ⟨S_, .f32⟩
  | .hbm, ⟨80, _⟩ => ⟨S12288, .f32⟩
  | .hbm, ⟨81, _⟩ => ⟨S12288, .f32⟩
  | .hbm, ⟨82, _⟩ => ⟨S12288, .f32⟩
  | .hbm, ⟨83, _⟩ => ⟨S_, .i32⟩
  | .hbm, ⟨84, _⟩ => ⟨S405504, .i32⟩
  | .hbm, ⟨85, _⟩ => ⟨S405504, .i1⟩
  | .hbm, ⟨86, _⟩ => ⟨S_, .i32⟩
  | .hbm, ⟨87, _⟩ => ⟨S405504, .i32⟩
  | .hbm, ⟨88, _⟩ => ⟨S405504, .i32⟩
  | .hbm, ⟨89, _⟩ => ⟨S405504, .i32⟩
  | .hbm, ⟨90, _⟩ => ⟨S405504x1, .i32⟩
  | .hbm, ⟨91, _⟩ => ⟨S405504, .f32⟩
  | .hbm, ⟨92, _⟩ => ⟨S_, .i32⟩
  | .hbm, ⟨93, _⟩ => ⟨S405504, .i32⟩
  | .hbm, ⟨94, _⟩ => ⟨S405504, .i1⟩
  | .hbm, ⟨95, _⟩ => ⟨S_, .i32⟩
  | .hbm, ⟨96, _⟩ => ⟨S405504, .i32⟩
  | .hbm, ⟨97, _⟩ => ⟨S405504, .i32⟩
  | .hbm, ⟨98, _⟩ => ⟨S405504, .i32⟩
  | .hbm, ⟨99, _⟩ => ⟨S405504x1, .i32⟩
  | .hbm, ⟨100, _⟩ => ⟨S405504, .f32⟩
  | .hbm, ⟨101, _⟩ => ⟨S405504, .f32⟩
  | .hbm, ⟨102, _⟩ => ⟨S_, .i32⟩
  | .hbm, ⟨103, _⟩ => ⟨S405504, .i32⟩
  | .hbm, ⟨104, _⟩ => ⟨S405504, .i1⟩
  | .hbm, ⟨105, _⟩ => ⟨S_, .i32⟩
  | .hbm, ⟨106, _⟩ => ⟨S405504, .i32⟩
  | .hbm, ⟨107, _⟩ => ⟨S405504, .i32⟩
  | .hbm, ⟨108, _⟩ => ⟨S405504, .i32⟩
  | .hbm, ⟨109, _⟩ => ⟨S405504x1, .i32⟩
  | .hbm, ⟨110, _⟩ => ⟨S405504x64, .f32⟩
  | .hbm, ⟨111, _⟩ => ⟨S405504x1, .f32⟩
  | .hbm, ⟨112, _⟩ => ⟨S405504x64, .f32⟩
  | .hbm, ⟨113, _⟩ => ⟨S405504x64, .f32⟩
  | .hbm, ⟨114, _⟩ => ⟨S_, .f32⟩
  | .hbm, ⟨115, _⟩ => ⟨S12288x64, .f32⟩
  | .hbm, ⟨116, _⟩ => ⟨S405504x1, .i32⟩
  | .hbm, ⟨117, _⟩ => ⟨S12288x64, .f32⟩
  | .hbm, ⟨118, _⟩ => ⟨S1x64, .f32⟩
  | .hbm, ⟨119, _⟩ => ⟨S12288x64, .f32⟩
  | .hbm, ⟨120, _⟩ => ⟨S12288x64, .f32⟩
  | .hbm, ⟨121, _⟩ => ⟨S64x12288, .f32⟩
  | .hbm, ⟨122, _⟩ => ⟨S12288x12288, .f32⟩
  | _, _ => ⟨S12288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_11 : Ref sig .tc := ⟨.hbm, 83, rfl⟩
abbrev main_v62 : Ref sig .tc := ⟨.hbm, 84, rfl⟩
abbrev main_v63 : Ref sig .tc := ⟨.hbm, 85, rfl⟩
abbrev main_c_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_15 : Ref sig .tc := ⟨.hbm, 102, rfl⟩
abbrev main_v77 : Ref sig .tc := ⟨.hbm, 103, rfl⟩
abbrev main_v78 : Ref sig .tc := ⟨.hbm, 104, rfl⟩
abbrev main_c_16 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_17 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩

abbrev nD : Nat := 1
abbrev τ : Topo := Topo.v7x

variable {F : FTy → Type} [FloatOps F]

class Facts₀ : Prop where
  slices_S2x393216_S1x393216_0_0 : S2x393216.Slices ![0, 0] S1x393216
  shapeCasts_S1x393216_S393216 : S1x393216.ShapeCasts S393216
  slices_S2x393216_S1x393216_1_0 : S2x393216.Slices ![1, 0] S1x393216
  concatenates_S393216_S12288_S405504_d0 : Shape.Concatenates [S393216, S12288] S405504 0
  bcast_S_S405504 : S_.BroadcastsInDim S405504 (![] : Fin 0 → Fin S405504.rank)
  bcast_S_S12288 : S_.BroadcastsInDim S12288 (![] : Fin 0 → Fin S12288.rank)
  bcast_S405504_S405504x1_0 : S405504.BroadcastsInDim S405504x1 (![0] : Fin 1 → Fin S405504x1.rank)
  bcast_S405504x1_S405504x128_0_1 : S405504x1.BroadcastsInDim S405504x128 (![0, 1] : Fin 2 → Fin S405504x128.rank)
  bcast_S_S12288x128 : S_.BroadcastsInDim S12288x128 (![] : Fin 0 → Fin S12288x128.rank)
  bcast_S128_S1x128_1 : S128.BroadcastsInDim S1x128 (![1] : Fin 1 → Fin S1x128.rank)
  bcast_S1x128_S12288x128_0_1 : S1x128.BroadcastsInDim S12288x128 (![0, 1] : Fin 2 → Fin S12288x128.rank)
  bcast_S405504x1_S405504x64_0_1 : S405504x1.BroadcastsInDim S405504x64 (![0, 1] : Fin 2 → Fin S405504x64.rank)
  bcast_S_S12288x64 : S_.BroadcastsInDim S12288x64 (![] : Fin 0 → Fin S12288x64.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  transposes_S12288x64_S64x12288_1_0 : S12288x64.Transposes [1, 0] S64x12288
  dot_S12288x128_S128x128_S12288x128_1_0_0_1_n_n_wf : DotDims.WF S12288x128 S128x128 S12288x128 [1] [0] [0] [1] [] []
  scatter_S12288_S405504x1_S405504_n_0_0_1_wf : ScatterDims.WF S12288 S405504x1 S405504 [] [0] [0] 1
  gather_S12288_S405504x1_S405504_n_0_n_n_0_1_1_wf : GatherDims.WF S12288 S405504x1 S405504 [] [0] [] [0] [] 1 ![1]
  gather_S12288x128_S405504x1_S405504x128_1_0_n_n_0_1_1128_wf : GatherDims.WF S12288x128 S405504x1 S405504x128 [1] [0] [] [0] [] 1 ![1, 128]
  scatter_S12288x128_S405504x1_S405504x128_1_0_0_1_wf : ScatterDims.WF S12288x128 S405504x1 S405504x128 [1] [0] [0] 1
  dot_S12288x128_S128x64_S12288x64_1_0_0_1_n_n_wf : DotDims.WF S12288x128 S128x64 S12288x64 [1] [0] [0] [1] [] []
  gather_S12288x64_S405504x1_S405504x64_1_0_n_n_0_1_164_wf : GatherDims.WF S12288x64 S405504x1 S405504x64 [1] [0] [] [0] [] 1 ![1, 64]
  scatter_S12288x64_S405504x1_S405504x64_1_0_0_1_wf : ScatterDims.WF S12288x64 S405504x1 S405504x64 [1] [0] [0] 1
  dot_S12288x64_S64x12288_S12288x12288_1_0_0_1_n_n_wf : DotDims.WF S12288x64 S64x12288 S12288x12288 [1] [0] [0] [1] [] []

variable [Facts₀]

def dot_S12288x128_S128x128_S12288x128_1_0_0_1_n_n : DotDims S12288x128 S128x128 S12288x128 where
  lhsContracting := [1]
  rhsContracting := [0]
  lhsNonContracting := [0]
  rhsNonContracting := [1]
  lhsBatch := []
  rhsBatch := []
  wf := dot_S12288x128_S128x128_S12288x128_1_0_0_1_n_n_wf
def scatter_S12288_S405504x1_S405504_n_0_0_1 : ScatterDims S12288 S405504x1 S405504 where
  updateWindowDims := []
  insertedWindowDims := [0]
  scatterDimsToOperandDims := [0]
  indexVectorDim := 1
  wf := scatter_S12288_S405504x1_S405504_n_0_0_1_wf
def gather_S12288_S405504x1_S405504_n_0_n_n_0_1_1 : GatherDims S12288 S405504x1 S405504 where
  offsetDims := []
  collapsedSliceDims := [0]
  operandBatchingDims := []
  startIndicesBatchingDims := []
  startIndexMap := [0]
  indexVectorDim := 1
  sliceSizes := ![1]
  wf := gather_S12288_S405504x1_S405504_n_0_n_n_0_1_1_wf
def gather_S12288x128_S405504x1_S405504x128_1_0_n_n_0_1_1128 : GatherDims S12288x128 S405504x1 S405504x128 where
  offsetDims := [1]
  collapsedSliceDims := [0]
  operandBatchingDims := []
  startIndicesBatchingDims := []
  startIndexMap := [0]
  indexVectorDim := 1
  sliceSizes := ![1, 128]
  wf := gather_S12288x128_S405504x1_S405504x128_1_0_n_n_0_1_1128_wf
def scatter_S12288x128_S405504x1_S405504x128_1_0_0_1 : ScatterDims S12288x128 S405504x1 S405504x128 where
  updateWindowDims := [1]
  insertedWindowDims := [0]
  scatterDimsToOperandDims := [0]
  indexVectorDim := 1
  wf := scatter_S12288x128_S405504x1_S405504x128_1_0_0_1_wf
def dot_S12288x128_S128x64_S12288x64_1_0_0_1_n_n : DotDims S12288x128 S128x64 S12288x64 where
  lhsContracting := [1]
  rhsContracting := [0]
  lhsNonContracting := [0]
  rhsNonContracting := [1]
  lhsBatch := []
  rhsBatch := []
  wf := dot_S12288x128_S128x64_S12288x64_1_0_0_1_n_n_wf
def gather_S12288x64_S405504x1_S405504x64_1_0_n_n_0_1_164 : GatherDims S12288x64 S405504x1 S405504x64 where
  offsetDims := [1]
  collapsedSliceDims := [0]
  operandBatchingDims := []
  startIndicesBatchingDims := []
  startIndexMap := [0]
  indexVectorDim := 1
  sliceSizes := ![1, 64]
  wf := gather_S12288x64_S405504x1_S405504x64_1_0_n_n_0_1_164_wf
def scatter_S12288x64_S405504x1_S405504x64_1_0_0_1 : ScatterDims S12288x64 S405504x1 S405504x64 where
  updateWindowDims := [1]
  insertedWindowDims := [0]
  scatterDimsToOperandDims := [0]
  indexVectorDim := 1
  wf := scatter_S12288x64_S405504x1_S405504x64_1_0_0_1_wf
def dot_S12288x64_S64x12288_S12288x12288_1_0_0_1_n_n : DotDims S12288x64 S64x12288 S12288x12288 where
  lhsContracting := [1]
  rhsContracting := [0]
  lhsNonContracting := [0]
  rhsNonContracting := [1]
  lhsBatch := []
  rhsBatch := []
  wf := dot_S12288x64_S64x12288_S12288x12288_1_0_0_1_n_n_wf

class Facts : Prop extends Facts₀ where

variable [Facts]
-- ==== Proof.KRegion0.lean ====
import proofs.«164775_j1236950581835_1_alg».proof.Proof.Gen.Kernel.Launch
import proofs.«164775_j1236950581835_1_alg».proof.Proof.Gen.Kernel.Skeleton
import proofs.«164775_j1236950581835_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first dense layer's matrix product, as a pipeline region

The first pallas_call multiplies a 1536-row block of the node features by the whole 128×128 weight matrix
at each of its 8 grid points and stores the product as the matching block of rows of the result. This module
states, for ANY contents `V` the core's buffers hold when the region is entered, what each window's staging buffer
holds around the body at a grid point, and proves that the body leaves the output window's buffer at the product
of the two input blocks. -/

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows (and columns) of its array, as the region finds it, that the point's
    index map selects. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current staging buffer holds the point's block of rows, whichever proof data say that the array
    is `V`'s and that the body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's buffer holds the whole weight matrix at every point: it is fetched once, and its block index never
    moves. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The one rectangle the body stores through: the whole 1536×128 output block. -/
abbrev rOut : Rect S1536x128 := Rect.unit (s := S1536x128) ![0, 0] S1536x128.size inb_S1536x128_S1536x128_0_0
abbrev rX : Rect S1536x128 := Rect.unit (s := S1536x128) ![0, 0] S1536x128.size inb_S1536x128_S1536x128_0_0
abbrev rW : Rect S128x128 := Rect.unit (s := S128x128) ![0, 0] S128x128.size inb_S128x128_S128x128_0_0

/-- What the body leaves in the output window's buffer: the product of the feature block and the weights, stored whole. -/
def out (x0 : Vec F S1536x128 .f32) (x1 : Vec F S128x128 .f32) : Vec F S1536x128 .f32 :=
  View.canon [⟨rOut, k0_pay1 (View.ld x0 rX) (View.ld x1 rW)⟩]

/-- The one store covers the whole buffer. -/
theorem cover (p0 : Vec F S1536x128 .f32) (y : S1536x128.Idx) :
    ∃ pc ∈ ([⟨rOut, p0⟩] : List (View.Piece (Elt F) S1536x128 .f32)), y ∈ pc.1.set :=
  View.cover_of_tiled [⟨rOut, p0⟩] S1536x128.size (by rfl) y

set_option maxHeartbeats 1000000 in
/-- The body on whole staging buffers: with the two inputs' buffers at `x0` and `x1` and the output's at anything, it runs
    to the end, leaves the inputs as they were and the output at `out x0 x1`. -/
theorem sound_kernel (c : Dev nD) (E : Set ℕ) (i : grid0.Coords) (arg1 : Memref sig .tc .vmem S1536x128 .f32) (harg1 : arg1.IsWhole)
    (arg2 : Memref sig .tc .vmem S128x128 .f32) (harg2 : arg2.IsWhole) (arg3 : Memref sig .tc .vmem S1536x128 .f32) (harg3 : arg3.IsWhole)
    (x0 : Vec F S1536x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The region's proof data on core `c`: the arrays as the region finds them; after the body at point `t` each input's
    buffer at its block and the output's at the product of the two blocks; the invariant holds only the scoped rest and
    the generator register; nothing is owed; every array is held whole. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the input buffers hold their blocks, so `sound_kernel` applies; the invariant and what the core
    owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dat (F := F) V c) (defs₀ (F := F)) Variants.none () Set.univ := fun t => by
  rw [bigSep_W0, bigSep_W0]
  exact sound_body V c t

end Cert.Kernel.R0

end
-- ==== Proof.KRegion1.lean ====
import proofs.«164775_j1236950581835_1_alg».proof.Proof.Gen.Kernel.Launch
import proofs.«164775_j1236950581835_1_alg».proof.Proof.Gen.Kernel.Skeleton
import proofs.«164775_j1236950581835_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second dense layer's matrix product, as a pipeline region

The second pallas_call multiplies a 1536-row block of the hidden features by the whole 128×64 weight matrix
at each of its 8 grid points and stores the product as the matching block of rows of the result. This module
states, for ANY contents `V` the core's buffers hold when the region is entered, what each window's staging buffer
holds around the body at a grid point, and proves that the body leaves the output window's buffer at the product
of the two input blocks. -/

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows (and columns) of its array, as the region finds it, that the point's
    index map selects. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's current staging buffer holds the point's block of rows, whichever proof data say that the array
    is `V`'s and that the body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's buffer holds the whole weight matrix at every point: it is fetched once, and its block index never
    moves. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The one rectangle the body stores through: the whole 1536×64 output block. -/
abbrev rOut : Rect S1536x64 := Rect.unit (s := S1536x64) ![0, 0] S1536x64.size inb_S1536x64_S1536x64_0_0
abbrev rX : Rect S1536x128 := Rect.unit (s := S1536x128) ![0, 0] S1536x128.size inb_S1536x128_S1536x128_0_0
abbrev rW : Rect S128x64 := Rect.unit (s := S128x64) ![0, 0] S128x64.size inb_S128x64_S128x64_0_0

/-- What the body leaves in the output window's buffer: the product of the feature block and the weights, stored whole. -/
def out (x0 : Vec F S1536x128 .f32) (x1 : Vec F S128x64 .f32) : Vec F S1536x64 .f32 :=
  View.canon [⟨rOut, k1_pay1 (View.ld x0 rX) (View.ld x1 rW)⟩]

/-- The one store covers the whole buffer. -/
theorem cover (p0 : Vec F S1536x64 .f32) (y : S1536x64.Idx) :
    ∃ pc ∈ ([⟨rOut, p0⟩] : List (View.Piece (Elt F) S1536x64 .f32)), y ∈ pc.1.set :=
  View.cover_of_tiled [⟨rOut, p0⟩] S1536x64.size (by rfl) y

set_option maxHeartbeats 1000000 in
/-- The body on whole staging buffers: with the two inputs' buffers at `x0` and `x1` and the output's at anything, it runs
    to the end, leaves the inputs as they were and the output at `out x0 x1`. -/
theorem sound_kernel (c : Dev nD) (E : Set ℕ) (i : grid1.Coords) (arg1 : Memref sig .tc .vmem S1536x128 .f32) (harg1 : arg1.IsWhole)
    (arg2 : Memref sig .tc .vmem S128x64 .f32) (harg2 : arg2.IsWhole) (arg3 : Memref sig .tc .vmem S1536x64 .f32) (harg3 : arg3.IsWhole)
    (x0 : Vec F S1536x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The region's proof data on core `c`: the arrays as the region finds them; after the body at point `t` each input's
    buffer at its block and the output's at the product of the two blocks; the invariant holds only the scoped rest and
    the generator register; nothing is owed; every array is held whole. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = out (iblk V c 0 t) (iblk V c 1 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the input buffers hold their blocks, so `sound_kernel` applies; the invariant and what the core
    owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dat (F := F) V c) (defs₀ (F := F)) Variants.none () Set.univ := fun t => by
  rw [bigSep_W1, bigSep_W1]
  exact sound_body V c t

end Cert.Kernel.R1

end
-- ==== Proof.KRegion2.lean ====
import proofs.«164775_j1236950581835_1_alg».proof.Proof.Gen.Kernel.Launch
import proofs.«164775_j1236950581835_1_alg».proof.Proof.Gen.Kernel.Skeleton
import proofs.«164775_j1236950581835_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The Gram product, as a pipeline region

The third pallas_call multiplies, at each of its 8×8 grid points, a 1536-row block of the embedding by the transpose
of another 1536-row block of the SAME embedding and stores the product as the matching 1536×1536 block of the result.
This module states, for ANY contents `V` the core's buffers hold when the region is entered, what each window's
staging buffer holds around the body at a grid point, and proves that the body leaves the output window's buffer at
the product of the two input blocks. Both input windows read one array, so each holds half of it: the second part of
the module splits the array's full share into the two halves at the region's entry and joins them back at its exit. -/

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows (and columns) of its array, as the region finds it, that the point's
    index map selects. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left factor's window holds the block of rows the point's first coordinate selects: it is fetched when that
    coordinate moves, and kept in between, whichever proof data say that the array is `V`'s and that the body leaves
    the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The right factor's window holds the block of rows the point's second coordinate selects: it is fetched at every
    point. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The one rectangle the body stores through: the whole 1536×1536 output block; -/
abbrev rOut : Rect S1536x1536 := Rect.unit (s := S1536x1536) ![0, 0] S1536x1536.size inb_S1536x1536_S1536x1536_0_0
/-- and the one it loads each input through: the whole 1536×64 block. -/
abbrev rA : Rect S1536x64 := Rect.unit (s := S1536x64) ![0, 0] S1536x64.size inb_S1536x64_S1536x64_0_0

/-- What the body leaves in the output window's buffer: the product of the first block and the second's transpose,
    stored whole. -/
def out (x0 x1 : Vec F S1536x64 .f32) : Vec F S1536x1536 .f32 :=
  View.canon [⟨rOut, k2_pay1 (View.ld x0 rA) (View.ld x1 rA)⟩]

/-- The one store covers the whole buffer. -/
theorem cover (p0 : Vec F S1536x1536 .f32) (y : S1536x1536.Idx) :
    ∃ pc ∈ ([⟨rOut, p0⟩] : List (View.Piece (Elt F) S1536x1536 .f32)), y ∈ pc.1.set :=
  View.cover_of_tiled [⟨rOut, p0⟩] S1536x1536.size (by rfl) y

set_option maxHeartbeats 1000000 in
/-- The body on whole staging buffers: with the two inputs' buffers at `x0` and `x1` and the output's at anything, it runs
    to the end, leaves the inputs as they were and the output at `out x0 x1`. -/
theorem sound_kernel (c : Dev nD) (E : Set ℕ) (i : grid2.Coords) (arg2 : Memref sig .tc .vmem S1536x64 .f32) (harg2 : arg2.IsWhole)
    (arg3 : Memref sig .tc .vmem S1536x64 .f32) (harg3 : arg3.IsWhole) (arg4 : Memref sig .tc .vmem S1536x1536 .f32) (harg4 : arg4.IsWhole)
    (x0 x1 : Vec F S1536x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out x0 x1)) -∗ K ⟨⟩))
      ⊢ wp frame (wpE (defs₀ (F := F)) Variants.none c none) E (cc2__gram_kernel i arg2 harg2 arg3 harg3 arg4 harg4) K := by
  simp only [cc2__gram_kernel_eq_skeleton]; unfold cc2__gram_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The region's proof data on core `c`: the arrays as the region finds them; after the body at point `t` each input's
    buffer at its block and the output's at the product of the two blocks; the invariant holds only the scoped rest and
    the generator register; nothing is owed. The two input windows read one array: the first holds its left half, the
    second its right half; the output array is held whole. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => out (iblk V c 0 t) (iblk V c 1 t)
  Φ _ := Pipeline.ΦA spec2 c
  q w := match w with
    | ⟨0, _⟩ => fullShare.left
    | ⟨1, _⟩ => fullShare.right
    | ⟨2, _⟩ => fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = out (iblk V c 0 t) (iblk V c 1 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the input buffers hold their blocks, so `sound_kernel` applies; the invariant and what the core
    owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dat (F := F) V c) (defs₀ (F := F)) Variants.none () Set.univ := fun t => by
  rw [bigSep_W2, bigSep_W2]
  exact sound_body V c t

/-! ## The region's entry and exit over the shared array

The three windows' arrays are two buffers: the embedding, which both input windows read, and the result. At the region's
entry the embedding, held at the full share, splits into its left and right halves, one for each input window; at the exit
the two halves, still at the same contents, join back. -/

/-- The buffers behind the windows' arrays: the embedding and the result. -/
theorem image_arrRef : (Finset.univ.image (Pipeline.arrRef spec2) : Finset (Ref sig .tc)) = {main_v92, main_v93} := by decide

/-- The core's unscoped buffers at contents `V'` are the embedding, the result and the rest. -/
theorem unscopedBufs_split (c : Dev nD) (V' : (b : Ref sig .tc) → Buf (Elt F) ((c : Thread nD τ).loc b)) :
    (unscopedBufs (Ix := Unit) (Name := ℕ) (U := UR sig nD τ) (Lvl := ℕ) c V' : sProp 𝕄)
      = iprop((((((c : Thread nD τ).loc main_v92) ↦{fullShare} V' main_v92) : sProp 𝕄) ∗ ((((c : Thread nD τ).loc main_v93) ↦{fullShare} V' main_v93) : sProp 𝕄))
        ∗ Pipeline.unscopedRest (Ix := Unit) (Name := ℕ) (U := UR sig nD τ) (Lvl := ℕ) spec2 c V') := by
  have hA : Finset.univ.image (Pipeline.arrRef spec2) ⊆ Finset.univ.filter fun b : Ref sig .tc => ¬ b.isScoped := fun b hb => by
    obtain ⟨w, -, rfl⟩ := Finset.mem_image.mp hb
    exact Finset.mem_filter.mpr ⟨Finset.mem_univ _, by simp [winFacts₀2.arr_unscoped w]⟩
  unfold unscopedBufs Pipeline.unscopedRest
  rw [bigSep_sdiff_split hA]
  refine congrArg₂ _ ?_ rfl
  rw [image_arrRef, bigSep_insert (by decide), bigSep_singleton]
  rfl

/-- The first input window's array at the region's share: the embedding's left half. -/
theorem arr_0 (c : Dev nD) (X : Buf (Elt F) ((cfg2.win 0).arr.view.loc (c : Thread nD τ))) :
    ((cfg2.win 0).arr.view.loc (c : Thread nD τ) ↦[(cfg2.win 0).arr.view.set]{(dat V c).share 0} X : sProp 𝕄)
      = (((c : Thread nD τ).loc main_v92) ↦{fullShare.left} X : sProp 𝕄) := by
  rw [(arr_whole2 0).set_eq_univ]; rfl

/-- The second input window's array at the region's share: the embedding's right half. -/
theorem arr_1 (c : Dev nD) (X : Buf (Elt F) ((cfg2.win 1).arr.view.loc (c : Thread nD τ))) :
    ((cfg2.win 1).arr.view.loc (c : Thread nD τ) ↦[(cfg2.win 1).arr.view.set]{(dat V c).share 1} X : sProp 𝕄)
      = (((c : Thread nD τ).loc main_v92) ↦{fullShare.right} X : sProp 𝕄) := by
  rw [(arr_whole2 1).set_eq_univ]; rfl

/-- The output window's array at the region's share: the result, whole. -/
theorem arr_2 (c : Dev nD) (X : Buf (Elt F) ((cfg2.win 2).arr.view.loc (c : Thread nD τ))) :
    ((cfg2.win 2).arr.view.loc (c : Thread nD τ) ↦[(cfg2.win 2).arr.view.set]{(dat V c).share 2} X : sProp 𝕄)
      = (((c : Thread nD τ).loc main_v93) ↦{fullShare} X : sProp 𝕄) := by
  rw [(arr_whole2 2).set_eq_univ]; rfl

/-- The windows' arrays at contents `G`, one by one. -/
theorem arrays_eq (c : Dev nD) (G : (w : Fin cfg2.W) → Buf (Elt F) ((cfg2.win w).arr.view.loc (c : Thread nD τ))) :
    ((dat V c).arrays G : sProp 𝕄)
      = iprop((((c : Thread nD τ).loc main_v92) ↦{fullShare.left} G 0 : sProp 𝕄) ∗ (((c : Thread nD τ).loc main_v92) ↦{fullShare.right} G 1 : sProp 𝕄)
          ∗ (((c : Thread nD τ).loc main_v93) ↦{fullShare} G 2 : sProp 𝕄)) := by
  unfold Dat.arrays
  rw [bigSep_W2, arr_0, arr_1, arr_2]

/-- ENTRY: the core's unscoped buffers at contents `V c` are the region's arrays at the proof data's entry contents, the
    embedding split into its two halves, and the unscoped rest. -/
theorem arrays_of_unscopedBufs (c : Dev nD) :
    (unscopedBufs (Ix := Unit) (Name := ℕ) (U := UR sig nD τ) (Lvl := ℕ) c (V c) : sProp 𝕄)
      ⊢ iprop((dat V c).arrays (dat V c).A ∗ Pipeline.unscopedRest (Ix := Unit) (Name := ℕ) (U := UR sig nD τ) (Lvl := ℕ) spec2 c (V c)) := by
  rw [unscopedBufs_split c (V c), arrays_eq]
  refine sep_mono ?_ .rfl
  rw [A_eq, A_eq, A_eq]
  iintro ⟨H92, H93⟩
  ihave H := (pointsTo_share (PosShare.mem_left_op_right fullShare)).1 $$ H92
  icases H with ⟨Hl, Hr⟩
  isplitl [Hl]; · iexact Hl
  isplitl [Hr]; · iexact Hr
  iexact H93

/-- EXIT: the region's arrays at contents `G`, the two halves of the embedding at the same contents, and the unscoped rest
    at `V c` are the core's unscoped buffers at any valuation `V'` that has the arrays at `G` and agrees with `V c` off
    them. -/
theorem unscopedBufs_of_arrays (c : Dev nD) (V' : (b : Ref sig .tc) → Buf (Elt F) ((c : Thread nD τ).loc b))
    (G : (w : Fin cfg2.W) → Buf (Elt F) ((cfg2.win w).arr.view.loc (c : Thread nD τ)))
    (hG : ∀ w, G w = V' (Pipeline.arrRef spec2 w)) (hrest : ∀ b, b ∉ Finset.univ.image (Pipeline.arrRef spec2) → V' b = V c b) :
    iprop((dat V c).arrays G ∗ Pipeline.unscopedRest (Ix := Unit) (Name := ℕ) (U := UR sig nD τ) (Lvl := ℕ) spec2 c (V c))
      ⊢ (unscopedBufs (Ix := Unit) (Name := ℕ) (U := UR sig nD τ) (Lvl := ℕ) c V' : sProp 𝕄) := by
  rw [unscopedBufs_split c V', arrays_eq, hG 0, hG 1, hG 2]
  refine sep_mono ?_ (Entails.of_eq ?_)
  · iintro ⟨Hl, Hr, H93⟩
    isplitr [H93]
    · iapply (pointsTo_share (PosShare.mem_left_op_right fullShare)).2
      isplitl [Hl]; · iexact Hl
      iexact Hr
    iexact H93
  · unfold Pipeline.unscopedRest
    exact bigSep_congr fun b hb => by rw [hrest b (Finset.mem_sdiff.mp hb).2]

end Cert.Kernel.R2

end
-- ==== Proof.KChain.lean ====
import proofs.«164775_j1236950581835_1_alg».proof.Proof.Gen.Kernel.Regions

/-! # The buffers' contents between the items of the host program

The host program is: the first matrix product (a kernel region), a stretch of host operations (degree normalisation,
gather, scatter-add, bias, relu), the second matrix product, the same stretch once more, and the Gram product. This
module names what the core's unscoped buffers hold after each item, given what each kernel region leaves in its result
array: `o1` in the first product's, `o4` (a function of the contents that region is entered from) in the second's,
`o6` in the Gram product's. -/

noncomputable section

namespace Cert.Kernel.Chain

open Cert.Kernel Cert.Kernel.Gen
open Idealize.ShloMosaic Idealize.ShloMosaic.TcCoe Idealize.SL.Sem

variable {F : FTy → Type} [FloatOps F]

/-- A core's buffers read at the TensorCore's references. -/
abbrev TcVal (F : FTy → Type) [FloatOps F] : Type := (c : Dev nD) → (b : Ref sig .tc) → Buf (Elt F) ((c : Thread nD τ).loc b)

variable (m : (ℓ : Loc nD τ sig) → Buf (Elt F) ℓ)
  (o1 : (c : Dev nD) → Buf (Elt F) ((c : Thread nD τ).loc main_v0))
  (o4 : TcVal F → (c : Dev nD) → Buf (Elt F) ((c : Thread nD τ).loc main_v47))
  (o6 : TcVal F → (c : Dev nD) → Buf (Elt F) ((c : Thread nD τ).loc main_v93))

/-- The launch contents, read at the TensorCore's references. -/
abbrev X0r : TcVal F := fun c b => V0 m c b
/-- After the first product: its result array at `o1`. -/
def X1 (c : Dev nD) : Valuation τ sig (Elt F) := Function.update (V0 m c) main_v0 (o1 c)
/-- After the first host stretch and the relu. -/
def X3 (c : Dev nD) : Valuation τ sig (Elt F) := StableHlo.after hostOps1_1 (StableHlo.after hostOps1 (X1 m o1 c))
abbrev X3r : TcVal F := fun c b => X3 m o1 c b
/-- After the second product: its result array at `o4` of what it was entered from. -/
def X4 (c : Dev nD) : Valuation τ sig (Elt F) := Function.update (X3 m o1 c) main_v47 (o4 (X3r m o1) c)
/-- After the second host stretch. -/
def X5 (c : Dev nD) : Valuation τ sig (Elt F) := StableHlo.after hostOps2 (X4 m o1 o4 c)
abbrev X5r : TcVal F := fun c b => X5 m o1 o4 c b
/-- After the Gram product: its result array at `o6` of what it was entered from. -/
def X6 (c : Dev nD) : Valuation τ sig (Elt F) := Function.update (X5 m o1 o4 c) main_v93 (o6 (X5r m o1 o4) c)

/-- What the regions leave, as the family the conditional frame is stated over: after item `n`, reference `r` on core `c`. -/
def outs : Outs (F := F) := fun n r c =>
  match n with
  | 1 => X1 m o1 c r
  | 4 => X4 m o1 o4 c r
  | 6 => X6 m o1 o4 o6 c r
  | _ => V0 m c r

theorem V1_eq (c : Dev nD) : V1 m (outs m o1 o4 o6) c = X1 m o1 c := by
  show Function.update (V0 m c) main_v0 (X1 m o1 c main_v0) = X1 m o1 c
  unfold X1
  rw [Function.update_self]

theorem V3_eq (c : Dev nD) : V3 m (outs m o1 o4 o6) c = X3 m o1 c := by
  show StableHlo.after hostOps1_1 (StableHlo.after hostOps1 (V1 m (outs m o1 o4 o6) c)) = X3 m o1 c
  rw [V1_eq]; rfl

theorem V4_eq (c : Dev nD) : V4 m (outs m o1 o4 o6) c = X4 m o1 o4 c := by
  show Function.update (V3 m (outs m o1 o4 o6) c) main_v47 (X4 m o1 o4 c main_v47) = X4 m o1 o4 c
  rw [V3_eq]
  unfold X4
  rw [Function.update_self]

theorem V5_eq (c : Dev nD) : V5 m (outs m o1 o4 o6) c = X5 m o1 o4 c := by
  show StableHlo.after hostOps2 (V4 m (outs m o1 o4 o6) c) = X5 m o1 o4 c
  rw [V4_eq]; rfl

theorem V6_eq (c : Dev nD) : V6 m (outs m o1 o4 o6) c = X6 m o1 o4 o6 c := by
  show Function.update (V5 m (outs m o1 o4 o6) c) main_v93 (X6 m o1 o4 o6 c main_v93) = X6 m o1 o4 o6 c
  rw [V5_eq]
  unfold X6
  rw [Function.update_self]

/-- Each update changes its one reference and no other. -/
theorem X1_result (c : Dev nD) : X1 m o1 c main_v0 = o1 c := by
  unfold X1; rw [Function.update_self]
theorem X1_of_ne (c : Dev nD) (r : Ref sig .tc) (h : r ≠ main_v0) : X1 m o1 c r = V0 m c r := by
  unfold X1; rw [Function.update_of_ne (fun e => h (Proc.devRef_injective _ e))]
theorem X4_result (c : Dev nD) : X4 m o1 o4 c main_v47 = o4 (X3r m o1) c := by
  unfold X4; rw [Function.update_self]
theorem X4_of_ne (c : Dev nD) (r : Ref sig .tc) (h : r ≠ main_v47) : X4 m o1 o4 c r = X3 m o1 c r := by
  unfold X4; rw [Function.update_of_ne (fun e => h (Proc.devRef_injective _ e))]
/-- The Gram product's result array at the end. -/
theorem X6_result (c : Dev nD) : X6 m o1 o4 o6 c main_v93 = o6 (X5r m o1 o4) c := by
  unfold X6; rw [Function.update_self]
theorem X6_of_ne (c : Dev nD) (r : Ref sig .tc) (h : r ≠ main_v93) : X6 m o1 o4 o6 c r = X5 m o1 o4 c r := by
  unfold X6; rw [Function.update_of_ne (fun e => h (Proc.devRef_injective _ e))]

end Cert.Kernel.Chain

end
-- ==== Proof.KRun.lean ====
import proofs.«164775_j1236950581835_1_alg».proof.Proof.KRegion0
import proofs.«164775_j1236950581835_1_alg».proof.Proof.KRegion1
import proofs.«164775_j1236950581835_1_alg».proof.Proof.KRegion2
import proofs.«164775_j1236950581835_1_alg».proof.Proof.KChain
import proofs.«164775_j1236950581835_1_alg».proof.Proof.KRunCond

/-! # The whole run: three kernel regions among the host stretches

Each pallas_call is one segment of the host program, entered with every unscoped buffer of the core held whole at the
contents the previous item left, and left with the same buffers at the contents after it: the region's arrays are split
out of the unscoped buffers at entry, the pipeline runs over them, and they are put back at the exit with the result
array at what the write-backs of all grid points leave. The first two regions read two distinct arrays and write a
third; the Gram region reads ONE array through two windows, each holding half of it. Beside the buffers ride the core's
generator register, at some state, and the fact that the core owes no other core anything.

The run's post keeps every unscoped buffer at the last contents of the chain: the arguments are read back from it
(the frame), and so is the result array (the value). -/

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each region leaves in its result array: the write-backs of all its grid points, folded -/

def o1 (c : Dev nD) : Buf (Elt F) ((c : Thread nD τ).loc main_v0) := (R0.dat (Chain.X0r m) c).arrAt 2 cfg0.N
def o4 (V : Chain.TcVal F) (c : Dev nD) : Buf (Elt F) ((c : Thread nD τ).loc main_v47) := (R1.dat V c).arrAt 2 cfg1.N
def o6 (V : Chain.TcVal F) (c : Dev nD) : Buf (Elt F) ((c : Thread nD τ).loc main_v93) := (R2.dat V c).arrAt 2 cfg2.N

/-- The chain of contents at these results. -/
abbrev X1 (c : Dev nD) : Valuation τ sig (Elt F) := Chain.X1 m (o1 m) c
abbrev X3 (c : Dev nD) : Valuation τ sig (Elt F) := Chain.X3 m (o1 m) c
abbrev X3r : Chain.TcVal F := Chain.X3r m (o1 m)
abbrev X4 (c : Dev nD) : Valuation τ sig (Elt F) := Chain.X4 m (o1 m) o4 c
abbrev X5 (c : Dev nD) : Valuation τ sig (Elt F) := Chain.X5 m (o1 m) o4 c
abbrev X5r : Chain.TcVal F := Chain.X5r m (o1 m) o4
abbrev X6 (c : Dev nD) : Valuation τ sig (Elt F) := Chain.X6 m (o1 m) o4 o6 c
abbrev outs : Outs (F := F) := Chain.outs m (o1 m) o4 o6

/-! ## The proof data family and the state that rides along -/

/-- Every pipeline's proof data, each at the contents its region is entered from. -/
def pdats : (p : Fin 3) → (c : Dev nD) → Dat τ (Elt F) Unit ℕ (UR sig nD τ) ℕ (cfgs p) c
  | ⟨0, _⟩ => fun c => R0.dat (Chain.X0r m) c
  | ⟨1, _⟩ => fun c => R1.dat (X3r m) c
  | ⟨2, _⟩ => fun c => R2.dat (X5r m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers: the generator register at some state, and nothing owed. -/
abbrev Rst (c : Dev nD) : sProp 𝕄 := iprop((∃ r, prngReg c r) ∗ ∃ W, owes (c : Thread nD τ) (0 : CellTallies nD τ sig Unit) W)
abbrev E : Fin 4 → Dev nD → sProp 𝕄 := fun _ c => Rst c

/-! ## The three regions as segments -/

/-- After the first product every array of its pipeline holds what the chain says: the inputs as entered, the result at `o1`. -/
theorem hF0 (c : Dev nD) (w : Fin cfg0.W) : (pdats m 0 c).arrAt w cfg0.N = X1 m c (Pipeline.arrRef spec0 w) :=
  match w with
  | ⟨0, _⟩ => ((R0.dat (Chain.X0r m) c).arrAt_in 0 rfl _).trans ((R0.A_eq (Chain.X0r m) c 0).trans (Chain.X1_of_ne m (o1 m) c main_arg0 (by decide)).symm)
  | ⟨1, _⟩ => ((R0.dat (Chain.X0r m) c).arrAt_in 1 rfl _).trans ((R0.A_eq (Chain.X0r m) c 1).trans (Chain.X1_of_ne m (o1 m) c main_arg2 (by decide)).symm)
  | ⟨2, _⟩ => (Chain.X1_result m (o1 m) c).symm
theorem hrest0 (c : Dev nD) : ∀ b : Ref sig .tc, b ∉ Finset.univ.image (Pipeline.arrRef spec0) → X1 m c b = V0 m c b :=
  fun b hb => Chain.X1_of_ne m (o1 m) c b (fun e => hb (Finset.mem_image.mpr ⟨2, Finset.mem_univ _, e.symm⟩))

set_option backward.isDefEq.respectTransparency.types false in
/-- The first product. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (Chain.X0r m) c).loose
  hwaits := Pipeline.hwaits_of_owed_zero _ _ _ _ L lv 0 fun _ _ => rfl
  pre c := iprop(StableHlo.held (c : Thread nD τ) (Pipeline.ucRefs τ sig) (V0 m c) ∗ Rst c)
  post c := iprop(StableHlo.held (c : Thread nD τ) (Pipeline.ucRefs τ sig) (X1 m c) ∗ Rst c)
  X c := iprop(∃ r, prngReg c r)
  Y c := iprop(∃ r, prngReg c r)
  Z c := Pipeline.unscopedRest (Ix := Unit) (Name := ℕ) (U := UR sig nD τ) (Lvl := ℕ) spec0 c (Chain.X0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Chain.X0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Chain.X0r m c) (fun b => X1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After the second product: the inputs as entered, the result at `o4`. -/
theorem hF1 (c : Dev nD) (w : Fin cfg1.W) : (pdats m 1 c).arrAt w cfg1.N = X4 m c (Pipeline.arrRef spec1 w) :=
  match w with
  | ⟨0, _⟩ => ((R1.dat (X3r m) c).arrAt_in 0 rfl _).trans ((R1.A_eq (X3r m) c 0).trans (Chain.X4_of_ne m (o1 m) o4 c main_v46 (by decide)).symm)
  | ⟨1, _⟩ => ((R1.dat (X3r m) c).arrAt_in 1 rfl _).trans ((R1.A_eq (X3r m) c 1).trans (Chain.X4_of_ne m (o1 m) o4 c main_arg4 (by decide)).symm)
  | ⟨2, _⟩ => (Chain.X4_result m (o1 m) o4 c).symm
theorem hrest1 (c : Dev nD) : ∀ b : Ref sig .tc, b ∉ Finset.univ.image (Pipeline.arrRef spec1) → X4 m c b = X3 m c b :=
  fun b hb => Chain.X4_of_ne m (o1 m) o4 c b (fun e => hb (Finset.mem_image.mpr ⟨2, Finset.mem_univ _, e.symm⟩))

set_option backward.isDefEq.respectTransparency.types false in
/-- The second product. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (X3r m) c).loose
  hwaits := Pipeline.hwaits_of_owed_zero _ _ _ _ L lv 1 fun _ _ => rfl
  pre c := iprop(StableHlo.held (c : Thread nD τ) (Pipeline.ucRefs τ sig) (X3 m c) ∗ Rst c)
  post c := iprop(StableHlo.held (c : Thread nD τ) (Pipeline.ucRefs τ sig) (X4 m c) ∗ Rst c)
  X c := iprop(∃ r, prngReg c r)
  Y c := iprop(∃ r, prngReg c r)
  Z c := Pipeline.unscopedRest (Ix := Unit) (Name := ℕ) (U := UR sig nD τ) (Lvl := ℕ) spec1 c (X3r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (X3r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (X3r m c) (fun b => X4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After the Gram product: its one input array (read through both windows) as entered, the result at `o6`. -/
theorem hF2 (c : Dev nD) (w : Fin cfg2.W) : (pdats m 2 c).arrAt w cfg2.N = X6 m c (Pipeline.arrRef spec2 w) :=
  match w with
  | ⟨0, _⟩ => ((R2.dat (X5r m) c).arrAt_in 0 rfl _).trans ((R2.A_eq (X5r m) c 0).trans (Chain.X6_of_ne m (o1 m) o4 o6 c main_v92 (by decide)).symm)
  | ⟨1, _⟩ => ((R2.dat (X5r m) c).arrAt_in 1 rfl _).trans ((R2.A_eq (X5r m) c 1).trans (Chain.X6_of_ne m (o1 m) o4 o6 c main_v92 (by decide)).symm)
  | ⟨2, _⟩ => (Chain.X6_result m (o1 m) o4 o6 c).symm
theorem hrest2 (c : Dev nD) : ∀ b : Ref sig .tc, b ∉ Finset.univ.image (Pipeline.arrRef spec2) → X6 m c b = X5 m c b :=
  fun b hb => Chain.X6_of_ne m (o1 m) o4 o6 c b (fun e => hb (Finset.mem_image.mpr ⟨2, Finset.mem_univ _, e.symm⟩))

set_option backward.isDefEq.respectTransparency.types false in
/-- The Gram product: one array read through two windows, each at half of it. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (R2.body_obligation (X5r m) c).loose
  hwaits := Pipeline.hwaits_of_owed_zero _ _ _ _ L lv 2 fun _ _ => rfl
  pre c := iprop(StableHlo.held (c : Thread nD τ) (Pipeline.ucRefs τ sig) (X5 m c) ∗ Rst c)
  post c := iprop(StableHlo.held (c : Thread nD τ) (Pipeline.ucRefs τ sig) (X6 m c) ∗ Rst c)
  X c := iprop(∃ r, prngReg c r)
  Y c := iprop(∃ r, prngReg c r)
  Z c := Pipeline.unscopedRest (Ix := Unit) (Name := ℕ) (U := UR sig nD τ) (Lvl := ℕ) spec2 c (X5r m c)
  hentry c := by
    rw [Pipeline.ownSems0_none]
    have hsplit : (unscopedBufs (Ix := Unit) (Name := ℕ) (U := UR sig nD τ) (Lvl := ℕ) c (X5r m c) : sProp 𝕄)
        ⊢ iprop((pdats m 2 c).arrays ((pdats m 2 c).arrAt · 0)
          ∗ Pipeline.unscopedRest (Ix := Unit) (Name := ℕ) (U := UR sig nD τ) (Lvl := ℕ) spec2 c (X5r m c)) :=
      R2.arrays_of_unscopedBufs (X5r m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
          ∗ Pipeline.unscopedRest (Ix := Unit) (Name := ℕ) (U := UR sig nD τ) (Lvl := ℕ) spec2 c (X5r m c))
        ⊢ (unscopedBufs (Ix := Unit) (Name := ℕ) (U := UR sig nD τ) (Lvl := ℕ) c (fun b => X6 m c b) : sProp 𝕄) :=
      R2.unscopedBufs_of_arrays (X5r m) c (fun b => X6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- What the launch hands a core beside its buffers makes the state that rides along: the generator register as seeded,
    nothing owed. -/
theorem rest_of_launch (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp)) : sProp 𝕄)
      ⊢ (Rst c : sProp 𝕄) := by
  iintro ⟨-, HO, -, Hp, -⟩
  isplitl [Hp]; · iexists _; iexact Hp
  iexists ∅; iexact HO

/-- THE RUN. From any memory with zero counters every weakly fair execution of the host program terminates, nothing
    faulting, and every final memory holds each unscoped buffer at the chain's last contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = X6 m c b) := by
  have h := Gen.run_cond m (Ix := Unit) (U := UR sig nD τ) (Lvl := ℕ) emb₁ () 𝒱₀ L lv (fun _ _ => rfl) ρ (outs m) (pdats m)
    0 (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E
    (by
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (E (F := F) 0) : sProp 𝕄) :=
        bigSep_mono fun c _ => rest_of_launch ρ c
      iintro ⟨H, -⟩
      imodintro
      iapply hmono
      iexact H)
    (fun c => by iintro ⟨-, HO⟩; iexact HO)
    (reg0 m) (fun c => .rfl) (fun c => by rw [Chain.V1_eq]; exact .rfl)
    (reg1 m) (fun c => by rw [Chain.V3_eq]; exact .rfl) (fun c => by rw [Chain.V4_eq]; exact .rfl)
    (reg2 m) (fun c => by rw [Chain.V5_eq]; exact .rfl) (fun c => by rw [Chain.V6_eq]; exact .rfl)
  exact (θ_run defs _ _).mono (fun r hr c b hb => (hr c b hb).trans (by rw [Chain.V6_eq])) h

/-! ## The frame, and the run with the result array named -/

/-- An unscoped TensorCore reference is among the buffers the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No item writes an argument: the chain's last contents at an argument are the launch contents. -/
theorem X6_arg0 (c : Dev nD) : X6 m c main_arg0 = m ((c : Thread nD τ).loc main_arg0) :=
  (congrFun (Chain.V6_eq m (o1 m) o4 o6 c).symm _).trans (V6_main_arg0 m (outs m) c)
theorem X6_arg1 (c : Dev nD) : X6 m c main_arg1 = m ((c : Thread nD τ).loc main_arg1) :=
  (congrFun (Chain.V6_eq m (o1 m) o4 o6 c).symm _).trans (V6_main_arg1 m (outs m) c)
theorem X6_arg2 (c : Dev nD) : X6 m c main_arg2 = m ((c : Thread nD τ).loc main_arg2) :=
  (congrFun (Chain.V6_eq m (o1 m) o4 o6 c).symm _).trans (V6_main_arg2 m (outs m) c)
theorem X6_arg3 (c : Dev nD) : X6 m c main_arg3 = m ((c : Thread nD τ).loc main_arg3) :=
  (congrFun (Chain.V6_eq m (o1 m) o4 o6 c).symm _).trans (V6_main_arg3 m (outs m) c)
theorem X6_arg4 (c : Dev nD) : X6 m c main_arg4 = m ((c : Thread nD τ).loc main_arg4) :=
  (congrFun (Chain.V6_eq m (o1 m) o4 o6 c).symm _).trans (V6_main_arg4 m (outs m) c)
theorem X6_arg5 (c : Dev nD) : X6 m c main_arg5 = m ((c : Thread nD τ).loc main_arg5) :=
  (congrFun (Chain.V6_eq m (o1 m) o4 o6 c).symm _).trans (V6_main_arg5 m (outs m) c)

/-- The run, with the result array at the chain's last contents and every argument as launched. -/
theorem run_value : θ_run defs (onTc (τ := τ) (main (F := F))) ⟨m, fun _ => 0, ρ⟩ (fun r => ∀ c : Dev nD,
      r.2.mem ((c.tc : Thread nD τ).loc main_v93) = X6 m c main_v93
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v93 (by decide)),
      (h c _ (mem_uc main_arg0 (by decide))).trans (X6_arg0 m c),
      (h c _ (mem_uc main_arg1 (by decide))).trans (X6_arg1 m c),
      (h c _ (mem_uc main_arg2 (by decide))).trans (X6_arg2 m c),
      (h c _ (mem_uc main_arg3 (by decide))).trans (X6_arg3 m c),
      (h c _ (mem_uc main_arg4 (by decide))).trans (X6_arg4 m c),
      (h c _ (mem_uc main_arg5 (by decide))).trans (X6_arg5 m c)⟩) (run_all m ρ)

/-- THE FRAME: the program runs to the end, faults nowhere, and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_value m ρ)

end Cert.Kernel.Run

end
-- ==== Proof.KIRegion0.lean ====
import proofs.«164775_j1236950581835_1_alg».proof.Proof.Gen.KernelIdeal.Launch
import proofs.«164775_j1236950581835_1_alg».proof.Proof.Gen.KernelIdeal.Skeleton
import proofs.«164775_j1236950581835_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first dense layer's matrix product, as a pipeline region

The first pallas_call multiplies a 1536-row block of the node features by the whole 128×128 weight matrix
at each of its 8 grid points and stores the product as the matching block of rows of the result. This module
states, for ANY contents `V` the core's buffers hold when the region is entered, what each window's staging buffer
holds around the body at a grid point, and proves that the body leaves the output window's buffer at the product
of the two input blocks. -/

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows (and columns) of its array, as the region finds it, that the point's
    index map selects. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current staging buffer holds the point's block of rows, whichever proof data say that the array
    is `V`'s and that the body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's buffer holds the whole weight matrix at every point: it is fetched once, and its block index never
    moves. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The one rectangle the body stores through: the whole 1536×128 output block. -/
abbrev rOut : Rect S1536x128 := Rect.unit (s := S1536x128) ![0, 0] S1536x128.size inb_S1536x128_S1536x128_0_0
abbrev rX : Rect S1536x128 := Rect.unit (s := S1536x128) ![0, 0] S1536x128.size inb_S1536x128_S1536x128_0_0
abbrev rW : Rect S128x128 := Rect.unit (s := S128x128) ![0, 0] S128x128.size inb_S128x128_S128x128_0_0

/-- What the body leaves in the output window's buffer: the product of the feature block and the weights, stored whole. -/
def out (x0 : Vec F S1536x128 .f32) (x1 : Vec F S128x128 .f32) : Vec F S1536x128 .f32 :=
  View.canon [⟨rOut, k0_pay1 (View.ld x0 rX) (View.ld x1 rW)⟩]

/-- The one store covers the whole buffer. -/
theorem cover (p0 : Vec F S1536x128 .f32) (y : S1536x128.Idx) :
    ∃ pc ∈ ([⟨rOut, p0⟩] : List (View.Piece (Elt F) S1536x128 .f32)), y ∈ pc.1.set :=
  View.cover_of_tiled [⟨rOut, p0⟩] S1536x128.size (by rfl) y

set_option maxHeartbeats 1000000 in
/-- The body on whole staging buffers: with the two inputs' buffers at `x0` and `x1` and the output's at anything, it runs
    to the end, leaves the inputs as they were and the output at `out x0 x1`. -/
theorem sound_kernel (c : Dev nD) (E : Set ℕ) (i : grid0.Coords) (arg1 : Memref sig .tc .vmem S1536x128 .f32) (harg1 : arg1.IsWhole)
    (arg2 : Memref sig .tc .vmem S128x128 .f32) (harg2 : arg2.IsWhole) (arg3 : Memref sig .tc .vmem S1536x128 .f32) (harg3 : arg3.IsWhole)
    (x0 : Vec F S1536x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The region's proof data on core `c`: the arrays as the region finds them; after the body at point `t` each input's
    buffer at its block and the output's at the product of the two blocks; the invariant holds only the scoped rest and
    the generator register; nothing is owed; every array is held whole. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the input buffers hold their blocks, so `sound_kernel` applies; the invariant and what the core
    owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dat (F := F) V c) (defs₀ (F := F)) Variants.none () Set.univ := fun t => by
  rw [bigSep_W0, bigSep_W0]
  exact sound_body V c t

end Cert.KernelIdeal.R0

end
-- ==== Proof.KIRegion1.lean ====
import proofs.«164775_j1236950581835_1_alg».proof.Proof.Gen.KernelIdeal.Launch
import proofs.«164775_j1236950581835_1_alg».proof.Proof.Gen.KernelIdeal.Skeleton
import proofs.«164775_j1236950581835_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second dense layer's matrix product, as a pipeline region

The second pallas_call multiplies a 1536-row block of the hidden features by the whole 128×64 weight matrix
at each of its 8 grid points and stores the product as the matching block of rows of the result. This module
states, for ANY contents `V` the core's buffers hold when the region is entered, what each window's staging buffer
holds around the body at a grid point, and proves that the body leaves the output window's buffer at the product
of the two input blocks. -/

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows (and columns) of its array, as the region finds it, that the point's
    index map selects. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's current staging buffer holds the point's block of rows, whichever proof data say that the array
    is `V`'s and that the body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's buffer holds the whole weight matrix at every point: it is fetched once, and its block index never
    moves. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The one rectangle the body stores through: the whole 1536×64 output block. -/
abbrev rOut : Rect S1536x64 := Rect.unit (s := S1536x64) ![0, 0] S1536x64.size inb_S1536x64_S1536x64_0_0
abbrev rX : Rect S1536x128 := Rect.unit (s := S1536x128) ![0, 0] S1536x128.size inb_S1536x128_S1536x128_0_0
abbrev rW : Rect S128x64 := Rect.unit (s := S128x64) ![0, 0] S128x64.size inb_S128x64_S128x64_0_0

/-- What the body leaves in the output window's buffer: the product of the feature block and the weights, stored whole. -/
def out (x0 : Vec F S1536x128 .f32) (x1 : Vec F S128x64 .f32) : Vec F S1536x64 .f32 :=
  View.canon [⟨rOut, k1_pay1 (View.ld x0 rX) (View.ld x1 rW)⟩]

/-- The one store covers the whole buffer. -/
theorem cover (p0 : Vec F S1536x64 .f32) (y : S1536x64.Idx) :
    ∃ pc ∈ ([⟨rOut, p0⟩] : List (View.Piece (Elt F) S1536x64 .f32)), y ∈ pc.1.set :=
  View.cover_of_tiled [⟨rOut, p0⟩] S1536x64.size (by rfl) y

set_option maxHeartbeats 1000000 in
/-- The body on whole staging buffers: with the two inputs' buffers at `x0` and `x1` and the output's at anything, it runs
    to the end, leaves the inputs as they were and the output at `out x0 x1`. -/
theorem sound_kernel (c : Dev nD) (E : Set ℕ) (i : grid1.Coords) (arg1 : Memref sig .tc .vmem S1536x128 .f32) (harg1 : arg1.IsWhole)
    (arg2 : Memref sig .tc .vmem S128x64 .f32) (harg2 : arg2.IsWhole) (arg3 : Memref sig .tc .vmem S1536x64 .f32) (harg3 : arg3.IsWhole)
    (x0 : Vec F S1536x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The region's proof data on core `c`: the arrays as the region finds them; after the body at point `t` each input's
    buffer at its block and the output's at the product of the two blocks; the invariant holds only the scoped rest and
    the generator register; nothing is owed; every array is held whole. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = out (iblk V c 0 t) (iblk V c 1 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the input buffers hold their blocks, so `sound_kernel` applies; the invariant and what the core
    owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dat (F := F) V c) (defs₀ (F := F)) Variants.none () Set.univ := fun t => by
  rw [bigSep_W1, bigSep_W1]
  exact sound_body V c t

end Cert.KernelIdeal.R1

end
-- ==== Proof.KIRegion2.lean ====
import proofs.«164775_j1236950581835_1_alg».proof.Proof.Gen.KernelIdeal.Launch
import proofs.«164775_j1236950581835_1_alg».proof.Proof.Gen.KernelIdeal.Skeleton
import proofs.«164775_j1236950581835_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The Gram product, as a pipeline region

The third pallas_call multiplies, at each of its 8×8 grid points, a 1536-row block of the embedding by the transpose
of another 1536-row block of the SAME embedding and stores the product as the matching 1536×1536 block of the result.
This module states, for ANY contents `V` the core's buffers hold when the region is entered, what each window's
staging buffer holds around the body at a grid point, and proves that the body leaves the output window's buffer at
the product of the two input blocks. Both input windows read one array, so each holds half of it: the second part of
the module splits the array's full share into the two halves at the region's entry and joins them back at its exit. -/

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows (and columns) of its array, as the region finds it, that the point's
    index map selects. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left factor's window holds the block of rows the point's first coordinate selects: it is fetched when that
    coordinate moves, and kept in between, whichever proof data say that the array is `V`'s and that the body leaves
    the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The right factor's window holds the block of rows the point's second coordinate selects: it is fetched at every
    point. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The one rectangle the body stores through: the whole 1536×1536 output block; -/
abbrev rOut : Rect S1536x1536 := Rect.unit (s := S1536x1536) ![0, 0] S1536x1536.size inb_S1536x1536_S1536x1536_0_0
/-- and the one it loads each input through: the whole 1536×64 block. -/
abbrev rA : Rect S1536x64 := Rect.unit (s := S1536x64) ![0, 0] S1536x64.size inb_S1536x64_S1536x64_0_0

/-- What the body leaves in the output window's buffer: the product of the first block and the second's transpose,
    stored whole. -/
def out (x0 x1 : Vec F S1536x64 .f32) : Vec F S1536x1536 .f32 :=
  View.canon [⟨rOut, k2_pay1 (View.ld x0 rA) (View.ld x1 rA)⟩]

/-- The one store covers the whole buffer. -/
theorem cover (p0 : Vec F S1536x1536 .f32) (y : S1536x1536.Idx) :
    ∃ pc ∈ ([⟨rOut, p0⟩] : List (View.Piece (Elt F) S1536x1536 .f32)), y ∈ pc.1.set :=
  View.cover_of_tiled [⟨rOut, p0⟩] S1536x1536.size (by rfl) y

set_option maxHeartbeats 1000000 in
/-- The body on whole staging buffers: with the two inputs' buffers at `x0` and `x1` and the output's at anything, it runs
    to the end, leaves the inputs as they were and the output at `out x0 x1`. -/
theorem sound_kernel (c : Dev nD) (E : Set ℕ) (i : grid2.Coords) (arg2 : Memref sig .tc .vmem S1536x64 .f32) (harg2 : arg2.IsWhole)
    (arg3 : Memref sig .tc .vmem S1536x64 .f32) (harg3 : arg3.IsWhole) (arg4 : Memref sig .tc .vmem S1536x1536 .f32) (harg4 : arg4.IsWhole)
    (x0 x1 : Vec F S1536x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out x0 x1)) -∗ K ⟨⟩))
      ⊢ wp frame (wpE (defs₀ (F := F)) Variants.none c none) E (cc2__gram_kernel i arg2 harg2 arg3 harg3 arg4 harg4) K := by
  simp only [cc2__gram_kernel_eq_skeleton]; unfold cc2__gram_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The region's proof data on core `c`: the arrays as the region finds them; after the body at point `t` each input's
    buffer at its block and the output's at the product of the two blocks; the invariant holds only the scoped rest and
    the generator register; nothing is owed. The two input windows read one array: the first holds its left half, the
    second its right half; the output array is held whole. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => out (iblk V c 0 t) (iblk V c 1 t)
  Φ _ := Pipeline.ΦA spec2 c
  q w := match w with
    | ⟨0, _⟩ => fullShare.left
    | ⟨1, _⟩ => fullShare.right
    | ⟨2, _⟩ => fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = out (iblk V c 0 t) (iblk V c 1 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the input buffers hold their blocks, so `sound_kernel` applies; the invariant and what the core
    owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dat (F := F) V c) (defs₀ (F := F)) Variants.none () Set.univ := fun t => by
  rw [bigSep_W2, bigSep_W2]
  exact sound_body V c t

/-! ## The region's entry and exit over the shared array

The three windows' arrays are two buffers: the embedding, which both input windows read, and the result. At the region's
entry the embedding, held at the full share, splits into its left and right halves, one for each input window; at the exit
the two halves, still at the same contents, join back. -/

/-- The buffers behind the windows' arrays: the embedding and the result. -/
theorem image_arrRef : (Finset.univ.image (Pipeline.arrRef spec2) : Finset (Ref sig .tc)) = {main_v92, main_v93} := by decide

/-- The core's unscoped buffers at contents `V'` are the embedding, the result and the rest. -/
theorem unscopedBufs_split (c : Dev nD) (V' : (b : Ref sig .tc) → Buf (Elt F) ((c : Thread nD τ).loc b)) :
    (unscopedBufs (Ix := Unit) (Name := ℕ) (U := UR sig nD τ) (Lvl := ℕ) c V' : sProp 𝕄)
      = iprop((((((c : Thread nD τ).loc main_v92) ↦{fullShare} V' main_v92) : sProp 𝕄) ∗ ((((c : Thread nD τ).loc main_v93) ↦{fullShare} V' main_v93) : sProp 𝕄))
        ∗ Pipeline.unscopedRest (Ix := Unit) (Name := ℕ) (U := UR sig nD τ) (Lvl := ℕ) spec2 c V') := by
  have hA : Finset.univ.image (Pipeline.arrRef spec2) ⊆ Finset.univ.filter fun b : Ref sig .tc => ¬ b.isScoped := fun b hb => by
    obtain ⟨w, -, rfl⟩ := Finset.mem_image.mp hb
    exact Finset.mem_filter.mpr ⟨Finset.mem_univ _, by simp [winFacts₀2.arr_unscoped w]⟩
  unfold unscopedBufs Pipeline.unscopedRest
  rw [bigSep_sdiff_split hA]
  refine congrArg₂ _ ?_ rfl
  rw [image_arrRef, bigSep_insert (by decide), bigSep_singleton]
  rfl

/-- The first input window's array at the region's share: the embedding's left half. -/
theorem arr_0 (c : Dev nD) (X : Buf (Elt F) ((cfg2.win 0).arr.view.loc (c : Thread nD τ))) :
    ((cfg2.win 0).arr.view.loc (c : Thread nD τ) ↦[(cfg2.win 0).arr.view.set]{(dat V c).share 0} X : sProp 𝕄)
      = (((c : Thread nD τ).loc main_v92) ↦{fullShare.left} X : sProp 𝕄) := by
  rw [(arr_whole2 0).set_eq_univ]; rfl

/-- The second input window's array at the region's share: the embedding's right half. -/
theorem arr_1 (c : Dev nD) (X : Buf (Elt F) ((cfg2.win 1).arr.view.loc (c : Thread nD τ))) :
    ((cfg2.win 1).arr.view.loc (c : Thread nD τ) ↦[(cfg2.win 1).arr.view.set]{(dat V c).share 1} X : sProp 𝕄)
      = (((c : Thread nD τ).loc main_v92) ↦{fullShare.right} X : sProp 𝕄) := by
  rw [(arr_whole2 1).set_eq_univ]; rfl

/-- The output window's array at the region's share: the result, whole. -/
theorem arr_2 (c : Dev nD) (X : Buf (Elt F) ((cfg2.win 2).arr.view.loc (c : Thread nD τ))) :
    ((cfg2.win 2).arr.view.loc (c : Thread nD τ) ↦[(cfg2.win 2).arr.view.set]{(dat V c).share 2} X : sProp 𝕄)
      = (((c : Thread nD τ).loc main_v93) ↦{fullShare} X : sProp 𝕄) := by
  rw [(arr_whole2 2).set_eq_univ]; rfl

/-- The windows' arrays at contents `G`, one by one. -/
theorem arrays_eq (c : Dev nD) (G : (w : Fin cfg2.W) → Buf (Elt F) ((cfg2.win w).arr.view.loc (c : Thread nD τ))) :
    ((dat V c).arrays G : sProp 𝕄)
      = iprop((((c : Thread nD τ).loc main_v92) ↦{fullShare.left} G 0 : sProp 𝕄) ∗ (((c : Thread nD τ).loc main_v92) ↦{fullShare.right} G 1 : sProp 𝕄)
          ∗ (((c : Thread nD τ).loc main_v93) ↦{fullShare} G 2 : sProp 𝕄)) := by
  unfold Dat.arrays
  rw [bigSep_W2, arr_0, arr_1, arr_2]

/-- ENTRY: the core's unscoped buffers at contents `V c` are the region's arrays at the proof data's entry contents, the
    embedding split into its two halves, and the unscoped rest. -/
theorem arrays_of_unscopedBufs (c : Dev nD) :
    (unscopedBufs (Ix := Unit) (Name := ℕ) (U := UR sig nD τ) (Lvl := ℕ) c (V c) : sProp 𝕄)
      ⊢ iprop((dat V c).arrays (dat V c).A ∗ Pipeline.unscopedRest (Ix := Unit) (Name := ℕ) (U := UR sig nD τ) (Lvl := ℕ) spec2 c (V c)) := by
  rw [unscopedBufs_split c (V c), arrays_eq]
  refine sep_mono ?_ .rfl
  rw [A_eq, A_eq, A_eq]
  iintro ⟨H92, H93⟩
  ihave H := (pointsTo_share (PosShare.mem_left_op_right fullShare)).1 $$ H92
  icases H with ⟨Hl, Hr⟩
  isplitl [Hl]; · iexact Hl
  isplitl [Hr]; · iexact Hr
  iexact H93

/-- EXIT: the region's arrays at contents `G`, the two halves of the embedding at the same contents, and the unscoped rest
    at `V c` are the core's unscoped buffers at any valuation `V'` that has the arrays at `G` and agrees with `V c` off
    them. -/
theorem unscopedBufs_of_arrays (c : Dev nD) (V' : (b : Ref sig .tc) → Buf (Elt F) ((c : Thread nD τ).loc b))
    (G : (w : Fin cfg2.W) → Buf (Elt F) ((cfg2.win w).arr.view.loc (c : Thread nD τ)))
    (hG : ∀ w, G w = V' (Pipeline.arrRef spec2 w)) (hrest : ∀ b, b ∉ Finset.univ.image (Pipeline.arrRef spec2) → V' b = V c b) :
    iprop((dat V c).arrays G ∗ Pipeline.unscopedRest (Ix := Unit) (Name := ℕ) (U := UR sig nD τ) (Lvl := ℕ) spec2 c (V c))
      ⊢ (unscopedBufs (Ix := Unit) (Name := ℕ) (U := UR sig nD τ) (Lvl := ℕ) c V' : sProp 𝕄) := by
  rw [unscopedBufs_split c V', arrays_eq, hG 0, hG 1, hG 2]
  refine sep_mono ?_ (Entails.of_eq ?_)
  · iintro ⟨Hl, Hr, H93⟩
    isplitr [H93]
    · iapply (pointsTo_share (PosShare.mem_left_op_right fullShare)).2
      isplitl [Hl]; · iexact Hl
      iexact Hr
    iexact H93
  · unfold Pipeline.unscopedRest
    exact bigSep_congr fun b hb => by rw [hrest b (Finset.mem_sdiff.mp hb).2]

end Cert.KernelIdeal.R2

end
-- ==== Proof.KIChain.lean ====
import proofs.«164775_j1236950581835_1_alg».proof.Proof.Gen.KernelIdeal.Regions

/-! # The buffers' contents between the items of the host program

The host program is: the first matrix product (a kernel region), a stretch of host operations (degree normalisation,
gather, scatter-add, bias, relu), the second matrix product, the same stretch once more, and the Gram product. This
module names what the core's unscoped buffers hold after each item, given what each kernel region leaves in its result
array: `o1` in the first product's, `o4` (a function of the contents that region is entered from) in the second's,
`o6` in the Gram product's. -/

noncomputable section

namespace Cert.KernelIdeal.Chain

open Cert.KernelIdeal Cert.KernelIdeal.Gen
open Idealize.ShloMosaic Idealize.ShloMosaic.TcCoe Idealize.SL.Sem

variable {F : FTy → Type} [FloatOps F]

/-- A core's buffers read at the TensorCore's references. -/
abbrev TcVal (F : FTy → Type) [FloatOps F] : Type := (c : Dev nD) → (b : Ref sig .tc) → Buf (Elt F) ((c : Thread nD τ).loc b)

variable (m : (ℓ : Loc nD τ sig) → Buf (Elt F) ℓ)
  (o1 : (c : Dev nD) → Buf (Elt F) ((c : Thread nD τ).loc main_v0))
  (o4 : TcVal F → (c : Dev nD) → Buf (Elt F) ((c : Thread nD τ).loc main_v47))
  (o6 : TcVal F → (c : Dev nD) → Buf (Elt F) ((c : Thread nD τ).loc main_v93))

/-- The launch contents, read at the TensorCore's references. -/
abbrev X0r : TcVal F := fun c b => V0 m c b
/-- After the first product: its result array at `o1`. -/
def X1 (c : Dev nD) : Valuation τ sig (Elt F) := Function.update (V0 m c) main_v0 (o1 c)
/-- After the first host stretch and the relu. -/
def X3 (c : Dev nD) : Valuation τ sig (Elt F) := StableHlo.after hostOps1_1 (StableHlo.after hostOps1 (X1 m o1 c))
abbrev X3r : TcVal F := fun c b => X3 m o1 c b
/-- After the second product: its result array at `o4` of what it was entered from. -/
def X4 (c : Dev nD) : Valuation τ sig (Elt F) := Function.update (X3 m o1 c) main_v47 (o4 (X3r m o1) c)
/-- After the second host stretch. -/
def X5 (c : Dev nD) : Valuation τ sig (Elt F) := StableHlo.after hostOps2 (X4 m o1 o4 c)
abbrev X5r : TcVal F := fun c b => X5 m o1 o4 c b
/-- After the Gram product: its result array at `o6` of what it was entered from. -/
def X6 (c : Dev nD) : Valuation τ sig (Elt F) := Function.update (X5 m o1 o4 c) main_v93 (o6 (X5r m o1 o4) c)

/-- What the regions leave, as the family the conditional frame is stated over: after item `n`, reference `r` on core `c`. -/
def outs : Outs (F := F) := fun n r c =>
  match n with
  | 1 => X1 m o1 c r
  | 4 => X4 m o1 o4 c r
  | 6 => X6 m o1 o4 o6 c r
  | _ => V0 m c r

theorem V1_eq (c : Dev nD) : V1 m (outs m o1 o4 o6) c = X1 m o1 c := by
  show Function.update (V0 m c) main_v0 (X1 m o1 c main_v0) = X1 m o1 c
  unfold X1
  rw [Function.update_self]

theorem V3_eq (c : Dev nD) : V3 m (outs m o1 o4 o6) c = X3 m o1 c := by
  show StableHlo.after hostOps1_1 (StableHlo.after hostOps1 (V1 m (outs m o1 o4 o6) c)) = X3 m o1 c
  rw [V1_eq]; rfl

theorem V4_eq (c : Dev nD) : V4 m (outs m o1 o4 o6) c = X4 m o1 o4 c := by
  show Function.update (V3 m (outs m o1 o4 o6) c) main_v47 (X4 m o1 o4 c main_v47) = X4 m o1 o4 c
  rw [V3_eq]
  unfold X4
  rw [Function.update_self]

theorem V5_eq (c : Dev nD) : V5 m (outs m o1 o4 o6) c = X5 m o1 o4 c := by
  show StableHlo.after hostOps2 (V4 m (outs m o1 o4 o6) c) = X5 m o1 o4 c
  rw [V4_eq]; rfl

theorem V6_eq (c : Dev nD) : V6 m (outs m o1 o4 o6) c = X6 m o1 o4 o6 c := by
  show Function.update (V5 m (outs m o1 o4 o6) c) main_v93 (X6 m o1 o4 o6 c main_v93) = X6 m o1 o4 o6 c
  rw [V5_eq]
  unfold X6
  rw [Function.update_self]

/-- Each update changes its one reference and no other. -/
theorem X1_result (c : Dev nD) : X1 m o1 c main_v0 = o1 c := by
  unfold X1; rw [Function.update_self]
theorem X1_of_ne (c : Dev nD) (r : Ref sig .tc) (h : r ≠ main_v0) : X1 m o1 c r = V0 m c r := by
  unfold X1; rw [Function.update_of_ne (fun e => h (Proc.devRef_injective _ e))]
theorem X4_result (c : Dev nD) : X4 m o1 o4 c main_v47 = o4 (X3r m o1) c := by
  unfold X4; rw [Function.update_self]
theorem X4_of_ne (c : Dev nD) (r : Ref sig .tc) (h : r ≠ main_v47) : X4 m o1 o4 c r = X3 m o1 c r := by
  unfold X4; rw [Function.update_of_ne (fun e => h (Proc.devRef_injective _ e))]
/-- The Gram product's result array at the end. -/
theorem X6_result (c : Dev nD) : X6 m o1 o4 o6 c main_v93 = o6 (X5r m o1 o4) c := by
  unfold X6; rw [Function.update_self]
theorem X6_of_ne (c : Dev nD) (r : Ref sig .tc) (h : r ≠ main_v93) : X6 m o1 o4 o6 c r = X5 m o1 o4 c r := by
  unfold X6; rw [Function.update_of_ne (fun e => h (Proc.devRef_injective _ e))]

end Cert.KernelIdeal.Chain

end
-- ==== Proof.KIRun.lean ====
import proofs.«164775_j1236950581835_1_alg».proof.Proof.KIRegion0
import proofs.«164775_j1236950581835_1_alg».proof.Proof.KIRegion1
import proofs.«164775_j1236950581835_1_alg».proof.Proof.KIRegion2
import proofs.«164775_j1236950581835_1_alg».proof.Proof.KIChain
import proofs.«164775_j1236950581835_1_alg».proof.Proof.KIRunCond

/-! # The whole run: three kernel regions among the host stretches

Each pallas_call is one segment of the host program, entered with every unscoped buffer of the core held whole at the
contents the previous item left, and left with the same buffers at the contents after it: the region's arrays are split
out of the unscoped buffers at entry, the pipeline runs over them, and they are put back at the exit with the result
array at what the write-backs of all grid points leave. The first two regions read two distinct arrays and write a
third; the Gram region reads ONE array through two windows, each holding half of it. Beside the buffers ride the core's
generator register, at some state, and the fact that the core owes no other core anything.

The run's post keeps every unscoped buffer at the last contents of the chain: the arguments are read back from it
(the frame), and so is the result array (the value). -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each region leaves in its result array: the write-backs of all its grid points, folded -/

def o1 (c : Dev nD) : Buf (Elt F) ((c : Thread nD τ).loc main_v0) := (R0.dat (Chain.X0r m) c).arrAt 2 cfg0.N
def o4 (V : Chain.TcVal F) (c : Dev nD) : Buf (Elt F) ((c : Thread nD τ).loc main_v47) := (R1.dat V c).arrAt 2 cfg1.N
def o6 (V : Chain.TcVal F) (c : Dev nD) : Buf (Elt F) ((c : Thread nD τ).loc main_v93) := (R2.dat V c).arrAt 2 cfg2.N

/-- The chain of contents at these results. -/
abbrev X1 (c : Dev nD) : Valuation τ sig (Elt F) := Chain.X1 m (o1 m) c
abbrev X3 (c : Dev nD) : Valuation τ sig (Elt F) := Chain.X3 m (o1 m) c
abbrev X3r : Chain.TcVal F := Chain.X3r m (o1 m)
abbrev X4 (c : Dev nD) : Valuation τ sig (Elt F) := Chain.X4 m (o1 m) o4 c
abbrev X5 (c : Dev nD) : Valuation τ sig (Elt F) := Chain.X5 m (o1 m) o4 c
abbrev X5r : Chain.TcVal F := Chain.X5r m (o1 m) o4
abbrev X6 (c : Dev nD) : Valuation τ sig (Elt F) := Chain.X6 m (o1 m) o4 o6 c
abbrev outs : Outs (F := F) := Chain.outs m (o1 m) o4 o6

/-! ## The proof data family and the state that rides along -/

/-- Every pipeline's proof data, each at the contents its region is entered from. -/
def pdats : (p : Fin 3) → (c : Dev nD) → Dat τ (Elt F) Unit ℕ (UR sig nD τ) ℕ (cfgs p) c
  | ⟨0, _⟩ => fun c => R0.dat (Chain.X0r m) c
  | ⟨1, _⟩ => fun c => R1.dat (X3r m) c
  | ⟨2, _⟩ => fun c => R2.dat (X5r m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers: the generator register at some state, and nothing owed. -/
abbrev Rst (c : Dev nD) : sProp 𝕄 := iprop((∃ r, prngReg c r) ∗ ∃ W, owes (c : Thread nD τ) (0 : CellTallies nD τ sig Unit) W)
abbrev E : Fin 4 → Dev nD → sProp 𝕄 := fun _ c => Rst c

/-! ## The three regions as segments -/

/-- After the first product every array of its pipeline holds what the chain says: the inputs as entered, the result at `o1`. -/
theorem hF0 (c : Dev nD) (w : Fin cfg0.W) : (pdats m 0 c).arrAt w cfg0.N = X1 m c (Pipeline.arrRef spec0 w) :=
  match w with
  | ⟨0, _⟩ => ((R0.dat (Chain.X0r m) c).arrAt_in 0 rfl _).trans ((R0.A_eq (Chain.X0r m) c 0).trans (Chain.X1_of_ne m (o1 m) c main_arg0 (by decide)).symm)
  | ⟨1, _⟩ => ((R0.dat (Chain.X0r m) c).arrAt_in 1 rfl _).trans ((R0.A_eq (Chain.X0r m) c 1).trans (Chain.X1_of_ne m (o1 m) c main_arg2 (by decide)).symm)
  | ⟨2, _⟩ => (Chain.X1_result m (o1 m) c).symm
theorem hrest0 (c : Dev nD) : ∀ b : Ref sig .tc, b ∉ Finset.univ.image (Pipeline.arrRef spec0) → X1 m c b = V0 m c b :=
  fun b hb => Chain.X1_of_ne m (o1 m) c b (fun e => hb (Finset.mem_image.mpr ⟨2, Finset.mem_univ _, e.symm⟩))

set_option backward.isDefEq.respectTransparency.types false in
/-- The first product. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (Chain.X0r m) c).loose
  hwaits := Pipeline.hwaits_of_owed_zero _ _ _ _ L lv 0 fun _ _ => rfl
  pre c := iprop(StableHlo.held (c : Thread nD τ) (Pipeline.ucRefs τ sig) (V0 m c) ∗ Rst c)
  post c := iprop(StableHlo.held (c : Thread nD τ) (Pipeline.ucRefs τ sig) (X1 m c) ∗ Rst c)
  X c := iprop(∃ r, prngReg c r)
  Y c := iprop(∃ r, prngReg c r)
  Z c := Pipeline.unscopedRest (Ix := Unit) (Name := ℕ) (U := UR sig nD τ) (Lvl := ℕ) spec0 c (Chain.X0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Chain.X0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Chain.X0r m c) (fun b => X1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After the second product: the inputs as entered, the result at `o4`. -/
theorem hF1 (c : Dev nD) (w : Fin cfg1.W) : (pdats m 1 c).arrAt w cfg1.N = X4 m c (Pipeline.arrRef spec1 w) :=
  match w with
  | ⟨0, _⟩ => ((R1.dat (X3r m) c).arrAt_in 0 rfl _).trans ((R1.A_eq (X3r m) c 0).trans (Chain.X4_of_ne m (o1 m) o4 c main_v46 (by decide)).symm)
  | ⟨1, _⟩ => ((R1.dat (X3r m) c).arrAt_in 1 rfl _).trans ((R1.A_eq (X3r m) c 1).trans (Chain.X4_of_ne m (o1 m) o4 c main_arg4 (by decide)).symm)
  | ⟨2, _⟩ => (Chain.X4_result m (o1 m) o4 c).symm
theorem hrest1 (c : Dev nD) : ∀ b : Ref sig .tc, b ∉ Finset.univ.image (Pipeline.arrRef spec1) → X4 m c b = X3 m c b :=
  fun b hb => Chain.X4_of_ne m (o1 m) o4 c b (fun e => hb (Finset.mem_image.mpr ⟨2, Finset.mem_univ _, e.symm⟩))

set_option backward.isDefEq.respectTransparency.types false in
/-- The second product. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (X3r m) c).loose
  hwaits := Pipeline.hwaits_of_owed_zero _ _ _ _ L lv 1 fun _ _ => rfl
  pre c := iprop(StableHlo.held (c : Thread nD τ) (Pipeline.ucRefs τ sig) (X3 m c) ∗ Rst c)
  post c := iprop(StableHlo.held (c : Thread nD τ) (Pipeline.ucRefs τ sig) (X4 m c) ∗ Rst c)
  X c := iprop(∃ r, prngReg c r)
  Y c := iprop(∃ r, prngReg c r)
  Z c := Pipeline.unscopedRest (Ix := Unit) (Name := ℕ) (U := UR sig nD τ) (Lvl := ℕ) spec1 c (X3r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (X3r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (X3r m c) (fun b => X4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After the Gram product: its one input array (read through both windows) as entered, the result at `o6`. -/
theorem hF2 (c : Dev nD) (w : Fin cfg2.W) : (pdats m 2 c).arrAt w cfg2.N = X6 m c (Pipeline.arrRef spec2 w) :=
  match w with
  | ⟨0, _⟩ => ((R2.dat (X5r m) c).arrAt_in 0 rfl _).trans ((R2.A_eq (X5r m) c 0).trans (Chain.X6_of_ne m (o1 m) o4 o6 c main_v92 (by decide)).symm)
  | ⟨1, _⟩ => ((R2.dat (X5r m) c).arrAt_in 1 rfl _).trans ((R2.A_eq (X5r m) c 1).trans (Chain.X6_of_ne m (o1 m) o4 o6 c main_v92 (by decide)).symm)
  | ⟨2, _⟩ => (Chain.X6_result m (o1 m) o4 o6 c).symm
theorem hrest2 (c : Dev nD) : ∀ b : Ref sig .tc, b ∉ Finset.univ.image (Pipeline.arrRef spec2) → X6 m c b = X5 m c b :=
  fun b hb => Chain.X6_of_ne m (o1 m) o4 o6 c b (fun e => hb (Finset.mem_image.mpr ⟨2, Finset.mem_univ _, e.symm⟩))

set_option backward.isDefEq.respectTransparency.types false in
/-- The Gram product: one array read through two windows, each at half of it. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (R2.body_obligation (X5r m) c).loose
  hwaits := Pipeline.hwaits_of_owed_zero _ _ _ _ L lv 2 fun _ _ => rfl
  pre c := iprop(StableHlo.held (c : Thread nD τ) (Pipeline.ucRefs τ sig) (X5 m c) ∗ Rst c)
  post c := iprop(StableHlo.held (c : Thread nD τ) (Pipeline.ucRefs τ sig) (X6 m c) ∗ Rst c)
  X c := iprop(∃ r, prngReg c r)
  Y c := iprop(∃ r, prngReg c r)
  Z c := Pipeline.unscopedRest (Ix := Unit) (Name := ℕ) (U := UR sig nD τ) (Lvl := ℕ) spec2 c (X5r m c)
  hentry c := by
    rw [Pipeline.ownSems0_none]
    have hsplit : (unscopedBufs (Ix := Unit) (Name := ℕ) (U := UR sig nD τ) (Lvl := ℕ) c (X5r m c) : sProp 𝕄)
        ⊢ iprop((pdats m 2 c).arrays ((pdats m 2 c).arrAt · 0)
          ∗ Pipeline.unscopedRest (Ix := Unit) (Name := ℕ) (U := UR sig nD τ) (Lvl := ℕ) spec2 c (X5r m c)) :=
      R2.arrays_of_unscopedBufs (X5r m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
          ∗ Pipeline.unscopedRest (Ix := Unit) (Name := ℕ) (U := UR sig nD τ) (Lvl := ℕ) spec2 c (X5r m c))
        ⊢ (unscopedBufs (Ix := Unit) (Name := ℕ) (U := UR sig nD τ) (Lvl := ℕ) c (fun b => X6 m c b) : sProp 𝕄) :=
      R2.unscopedBufs_of_arrays (X5r m) c (fun b => X6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- What the launch hands a core beside its buffers makes the state that rides along: the generator register as seeded,
    nothing owed. -/
theorem rest_of_launch (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp)) : sProp 𝕄)
      ⊢ (Rst c : sProp 𝕄) := by
  iintro ⟨-, HO, -, Hp, -⟩
  isplitl [Hp]; · iexists _; iexact Hp
  iexists ∅; iexact HO

/-- THE RUN. From any memory with zero counters every weakly fair execution of the host program terminates, nothing
    faulting, and every final memory holds each unscoped buffer at the chain's last contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = X6 m c b) := by
  have h := Gen.run_cond m (Ix := Unit) (U := UR sig nD τ) (Lvl := ℕ) emb₁ () 𝒱₀ L lv (fun _ _ => rfl) ρ (outs m) (pdats m)
    0 (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E
    (by
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (E (F := F) 0) : sProp 𝕄) :=
        bigSep_mono fun c _ => rest_of_launch ρ c
      iintro ⟨H, -⟩
      imodintro
      iapply hmono
      iexact H)
    (fun c => by iintro ⟨-, HO⟩; iexact HO)
    (reg0 m) (fun c => .rfl) (fun c => by rw [Chain.V1_eq]; exact .rfl)
    (reg1 m) (fun c => by rw [Chain.V3_eq]; exact .rfl) (fun c => by rw [Chain.V4_eq]; exact .rfl)
    (reg2 m) (fun c => by rw [Chain.V5_eq]; exact .rfl) (fun c => by rw [Chain.V6_eq]; exact .rfl)
  exact (θ_run defs _ _).mono (fun r hr c b hb => (hr c b hb).trans (by rw [Chain.V6_eq])) h

/-! ## The frame, and the run with the result array named -/

/-- An unscoped TensorCore reference is among the buffers the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No item writes an argument: the chain's last contents at an argument are the launch contents. -/
theorem X6_arg0 (c : Dev nD) : X6 m c main_arg0 = m ((c : Thread nD τ).loc main_arg0) :=
  (congrFun (Chain.V6_eq m (o1 m) o4 o6 c).symm _).trans (V6_main_arg0 m (outs m) c)
theorem X6_arg1 (c : Dev nD) : X6 m c main_arg1 = m ((c : Thread nD τ).loc main_arg1) :=
  (congrFun (Chain.V6_eq m (o1 m) o4 o6 c).symm _).trans (V6_main_arg1 m (outs m) c)
theorem X6_arg2 (c : Dev nD) : X6 m c main_arg2 = m ((c : Thread nD τ).loc main_arg2) :=
  (congrFun (Chain.V6_eq m (o1 m) o4 o6 c).symm _).trans (V6_main_arg2 m (outs m) c)
theorem X6_arg3 (c : Dev nD) : X6 m c main_arg3 = m ((c : Thread nD τ).loc main_arg3) :=
  (congrFun (Chain.V6_eq m (o1 m) o4 o6 c).symm _).trans (V6_main_arg3 m (outs m) c)
theorem X6_arg4 (c : Dev nD) : X6 m c main_arg4 = m ((c : Thread nD τ).loc main_arg4) :=
  (congrFun (Chain.V6_eq m (o1 m) o4 o6 c).symm _).trans (V6_main_arg4 m (outs m) c)
theorem X6_arg5 (c : Dev nD) : X6 m c main_arg5 = m ((c : Thread nD τ).loc main_arg5) :=
  (congrFun (Chain.V6_eq m (o1 m) o4 o6 c).symm _).trans (V6_main_arg5 m (outs m) c)

/-- The run, with the result array at the chain's last contents and every argument as launched. -/
theorem run_value : θ_run defs (onTc (τ := τ) (main (F := F))) ⟨m, fun _ => 0, ρ⟩ (fun r => ∀ c : Dev nD,
      r.2.mem ((c.tc : Thread nD τ).loc main_v93) = X6 m c main_v93
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v93 (by decide)),
      (h c _ (mem_uc main_arg0 (by decide))).trans (X6_arg0 m c),
      (h c _ (mem_uc main_arg1 (by decide))).trans (X6_arg1 m c),
      (h c _ (mem_uc main_arg2 (by decide))).trans (X6_arg2 m c),
      (h c _ (mem_uc main_arg3 (by decide))).trans (X6_arg3 m c),
      (h c _ (mem_uc main_arg4 (by decide))).trans (X6_arg4 m c),
      (h c _ (mem_uc main_arg5 (by decide))).trans (X6_arg5 m c)⟩) (run_all m ρ)

/-- THE FRAME: the program runs to the end, faults nowhere, and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_value m ρ)

end Cert.KernelIdeal.Run

end
-- ==== Proof.LibMatSpec.lean ====
import Idealize.ShloMosaic.Lib.ValueIdx
import Idealize.ShloMosaic.PureOps.Ideal

/-! # Two matrix products over the extended reals, as plain sums

`mm x w` is the product of an `M×K` and a `K×N` array: entry `(p, q)` is the sum over `k` of `x p k · w k q`.
`gram l` is an `M×K` array against its own transpose: entry `(p, q)` is the sum over `k` of `l p k · l q k`.
Extents are generic; sums are finite sums in the extended reals, in which addition is commutative and associative,
so no order of summation is part of the definition. -/

noncomputable section

open scoped BigOperators

namespace MatSpec

open Idealize.ShloMosaic Idealize.ShloMosaic.ValueIdx

/-- The product of an `M×K` array and a `K×N` array, entry by entry. -/
def mm {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (n1 := K) (i 0) k) * w (ix2 (n0 := K) (n1 := N) k (i 1))

/-- An `M×K` array against its own transpose, entry by entry. -/
def gram {M K : ℕ} (l : (⟨2, ![M, K]⟩ : Shape).Idx → EReal) : (⟨2, ![M, M]⟩ : Shape).Idx → EReal :=
  fun i => ∑ k : Fin K, l (ix2 (n0 := M) (n1 := K) (i 0) k) * l (ix2 (n0 := M) (n1 := K) (i 1) k)

theorem mm_apply {M K N : ℕ} (x : (⟨2, ![M, K]⟩ : Shape).Idx → EReal) (w : (⟨2, ![K, N]⟩ : Shape).Idx → EReal)
    (p : Fin M) (q : Fin N) : mm x w (ix2 p q) = ∑ k : Fin K, x (ix2 p k) * w (ix2 k q) := rfl

theorem gram_apply {M K : ℕ} (l : (⟨2, ![M, K]⟩ : Shape).Idx → EReal) (p q : Fin M) :
    gram l (ix2 p q) = ∑ k : Fin K, l (ix2 p k) * l (ix2 q k) := rfl

end MatSpec

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.KIValue0.lean ====
import proofs.«164775_j1236950581835_1_alg».proof.Proof.KIRegion0
import proofs.«164775_j1236950581835_1_alg».proof.Proof.LibMatSpec
import proofs.«164775_j1236950581835_1_alg».proof.Proof.LibRowOps
import Idealize.ShloMosaic.Lib.Pipeline.Value
import Idealize.ShloMosaic.Lib.ValueIdx

/-! # The first dense layer's result array is one matrix product

The region multiplies, at each of its 8 grid points, a block of 1536 rows of the 12288×128 node features by the whole
128×128 weight matrix, and writes the product back as the same block of rows of the result. Entry `(p, q)` of a block's
product is the sum over `k` of the block's `(p, k)` times the weights' `(k, q)`; row `p` of block `t` is row
`1536·t + p` of the array; so every block written back is the matching block of rows of the product of the two whole
arrays. The 8 blocks cover every row (row `r` lies in block `r / 1536`), hence the result array ends holding that
product, at the extended reals, where narrowing an operand to bf16 changes nothing. -/

noncomputable section

open scoped BigOperators

namespace Cert.KernelIdeal.Value0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The offsets of a whole-buffer load or store are all zero. -/
theorem zero_offsets : (![0, 0] : Fin 2 → Nat) = fun _ => 0 := funext fun a => by fin_cases a <;> rfl

/-- The body's product of two blocks at `(p, q)`: row `p` of the left block against column `q` of the right one. -/
theorem product_apply (x0 : Vec Ideal S1536x128 .f32) (x1 : Vec Ideal S128x128 .f32) (p : Fin 1536) (q : Fin 128) :
    k0_pay1 x0 x1 (ix2 p q) = ∑ k : Fin 128, x0 (ix2 p k) * x1 (ix2 k q) := by
  unfold k0_pay1
  exact RowOps.matmul_plain_apply (M := 1536) (K := 128) (N := 128) dot_S1536x128_S128x128_S1536x128_1_0_0_1_n_n rfl none x0 x1 p q

/-- If the left block is rows `1536·n …` of `A` and the right block is `W`, the blocks' product at `(p, q)` is the
    arrays' product at any index whose row is `1536·n + p` and whose column is `q`: the two sums agree term by term. -/
theorem block_product (A : S12288x128.Idx → EReal) (W : S128x128.Idx → EReal)
    (x0 : Vec Ideal S1536x128 .f32) (x1 : Vec Ideal S128x128 .f32) (n : ℕ)
    (h0 : ∀ (p : Fin 1536) (k : Fin 128) (r : Fin 12288), r.val = n * 1536 + p.val → x0 (ix2 p k) = A (ix2 r k))
    (h1 : ∀ (k : Fin 128) (q q' : Fin 128), q'.val = q.val → x1 (ix2 k q) = W (ix2 k q'))
    (p : Fin 1536) (q : Fin 128) (i : S12288x128.Idx) (hi0 : (i 0).val = n * 1536 + p.val) (hi1 : (i 1).val = q.val) :
    k0_pay1 x0 x1 (ix2 p q) = MatSpec.mm (M := 12288) (K := 128) (N := 128) A W i := by
  rw [product_apply]
  show _ = ∑ k : Fin 128, A (ix2 (i 0) k) * W (ix2 k (i 1))
  refine Finset.sum_congr rfl fun k _ => ?_
  rw [h0 p k (i 0) hi0, h1 k q (i 1) hi1]

/-- The block indices at grid point `t`: the row-block windows sit at block `(t, 0)`, the weight window at `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the left window's block at point `t` is row `1536·t + p` of its array. -/
theorem rows_apply (c : Dev nD) (t : Fin cfg0.N) (p : Fin 1536) (k : Fin 128) (r : Fin 12288)
    (hr : r.val = t.val * 1536 + p.val) :
    (R0.iblk V c 0 t : Vec Ideal S1536x128 .f32) (ix2 p k) = (V c main_arg0 : S12288x128.Idx → EReal) (ix2 r k) := by
  obtain ⟨e00, e01, -⟩ := idx_facts t
  unfold R0.iblk
  rw [View.read_apply]
  show V c main_arg0 _ = V c main_arg0 _
  refine congrArg (V c main_arg0) (funext fun a => Fin.ext ?_)
  match a with
  | ⟨0, _⟩ => show win0_0.index t (0 : Fin 2) * 1536 + 1 * p.val = r.val; omega
  | ⟨1, _⟩ => show win0_0.index t (1 : Fin 2) * 128 + 1 * k.val = k.val; omega

/-- The weight window's block at every point is the whole weight matrix. -/
theorem weights_apply (c : Dev nD) (t : Fin cfg0.N) (k : Fin 128) (q q' : Fin 128) (hq : q'.val = q.val) :
    (R0.iblk V c 1 t : Vec Ideal S128x128 .f32) (ix2 k q) = (V c main_arg2 : S128x128.Idx → EReal) (ix2 k q') := by
  obtain ⟨-, -, e10, e11, -⟩ := idx_facts t
  unfold R0.iblk
  rw [View.read_apply]
  show V c main_arg2 _ = V c main_arg2 _
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 128 + 1 * q.val = q'.val; omega

/-- What point `t` writes back is block `t` of the product of the two whole arrays. -/
theorem flushed_eq (c : Dev nD) (t : Fin cfg0.N) :
    (R0.dat (F := Ideal) V c).flushed 2 t
      = ((cfg0.win 2).blk t).view.read (Elt Ideal)
          (MatSpec.mm (M := 12288) (K := 128) (N := 128) (V c main_arg0) (V c main_arg2)) := by
  show (cfg0.win 2).cut (grid0.coords t) ((R0.dat (F := Ideal) V c).after 2 t) = _
  rw [R0.after_2]
  unfold R0.out
  rw [View.canon_unit_zero zero_offsets]
  simp only [View.ld_unit_zero (S := S1536x128) zero_offsets, View.ld_unit_zero (S := S128x128) zero_offsets]
  obtain ⟨-, -, -, -, e20, e21⟩ := idx_facts t
  refine funext fun (j : S1536x128.Idx) => ?_
  obtain ⟨p, q, rfl⟩ : ∃ (p : Fin 1536) (q : Fin 128), j = ix2 p q := ⟨j 0, j 1, eq_ix2 j⟩
  show k0_pay1 (R0.iblk V c 0 t) (R0.iblk V c 1 t) (ix2 p q)
    = MatSpec.mm (M := 12288) (K := 128) (N := 128) (V c main_arg0) (V c main_arg2) (((cfg0.win 2).blk t).view.emb (ix2 p q))
  refine block_product (V c main_arg0) (V c main_arg2) (R0.iblk V c 0 t) (R0.iblk V c 1 t) t.val
    (rows_apply V c t) (weights_apply V c t) p q _ ?_ ?_
  · show win0_2.index t (0 : Fin 2) * 1536 + 1 * p.val = t.val * 1536 + p.val; omega
  · show win0_2.index t (1 : Fin 2) * 128 + 1 * q.val = q.val; omega

/-- An index of the result array is in point `t`'s block iff each coordinate is in the block's range on its axis. -/
theorem mem_block (t : Fin cfg0.N) (i : S12288x128.Idx) :
    i ∈ ((cfg0.win 2).blk t).view.set ↔ ∀ a : Fin 2, win0_2.index t a * S1536x128.size a ≤ (i a).val
      ∧ (i a).val < win0_2.index t a * S1536x128.size a + S1536x128.size a := by
  show i ∈ ((View.whole main_v0).slice (win0_2.rect t)).set ↔ _
  rw [View.set_slice_whole, Rect.mem_set_unit]
  exact Iff.rfl

/-- Every index of the result array is written: row `r` lies in the block of point `r / 1536`. -/
theorem covered (i : S12288x128.Idx) :
    ∃ t : Fin cfg0.N, (cfg0.win 2).flush t = true ∧ i ∈ ((cfg0.win 2).blk t).view.set := by
  have hi0 : (i 0).val < 12288 := (i 0).isLt
  have hi1 : (i 1).val < 128 := (i 1).isLt
  have hN : cfg0.N = 8 := N_0
  have hT : (i 0).val / 1536 < cfg0.N := by rw [hN]; omega
  obtain ⟨-, -, -, -, e20, e21⟩ := idx_facts ⟨(i 0).val / 1536, hT⟩
  have e20' : win0_2.index ⟨(i 0).val / 1536, hT⟩ (0 : Fin 2) = (i 0).val / 1536 := e20
  refine ⟨⟨(i 0).val / 1536, hT⟩, flush0_2 _, ?_⟩
  rw [mem_block]
  intro a
  match a with
  | ⟨0, _⟩ =>
    show win0_2.index ⟨(i 0).val / 1536, hT⟩ (0 : Fin 2) * 1536 ≤ (i 0).val
      ∧ (i 0).val < win0_2.index ⟨(i 0).val / 1536, hT⟩ (0 : Fin 2) * 1536 + 1536
    omega
  | ⟨1, _⟩ =>
    show win0_2.index ⟨(i 0).val / 1536, hT⟩ (1 : Fin 2) * 128 ≤ (i 1).val
      ∧ (i 1).val < win0_2.index ⟨(i 0).val / 1536, hT⟩ (1 : Fin 2) * 128 + 128
    omega

/-- After the region's run the result array holds the product of the two arrays the region was entered with. -/
theorem final (c : Dev nD) :
    (R0.dat (F := Ideal) V c).arrAt 2 cfg0.N
      = MatSpec.mm (M := 12288) (K := 128) (N := 128) (V c main_arg0) (V c main_arg2) :=
  (R0.dat (F := Ideal) V c).arrAt_eq_of_cover 2
    (MatSpec.mm (M := 12288) (K := 128) (N := 128) (V c main_arg0) (V c main_arg2))
    (fun t _ => flushed_eq V c t) covered

end Cert.KernelIdeal.Value0

end
-- ==== Proof.KIValue1.lean ====
import proofs.«164775_j1236950581835_1_alg».proof.Proof.KIRegion1
import proofs.«164775_j1236950581835_1_alg».proof.Proof.LibMatSpec
import proofs.«164775_j1236950581835_1_alg».proof.Proof.LibRowOps
import Idealize.ShloMosaic.Lib.Pipeline.Value
import Idealize.ShloMosaic.Lib.ValueIdx

/-! # The second dense layer's result array is one matrix product

The region multiplies, at each of its 8 grid points, a block of 1536 rows of the 12288×128 hidden features by the whole
128×64 weight matrix, and writes the product back as the same block of rows of the result. Entry `(p, q)` of a block's
product is the sum over `k` of the block's `(p, k)` times the weights' `(k, q)`; row `p` of block `t` is row
`1536·t + p` of the array; so every block written back is the matching block of rows of the product of the two whole
arrays. The 8 blocks cover every row (row `r` lies in block `r / 1536`), hence the result array ends holding that
product, at the extended reals, where narrowing an operand to bf16 changes nothing. -/

noncomputable section

open scoped BigOperators

namespace Cert.KernelIdeal.Value1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The offsets of a whole-buffer load or store are all zero. -/
theorem zero_offsets : (![0, 0] : Fin 2 → Nat) = fun _ => 0 := funext fun a => by fin_cases a <;> rfl

/-- The body's product of two blocks at `(p, q)`: row `p` of the left block against column `q` of the right one (the cast of the left block to its own shape changes nothing). -/
theorem product_apply (x0 : Vec Ideal S1536x128 .f32) (x1 : Vec Ideal S128x64 .f32) (p : Fin 1536) (q : Fin 64) :
    k1_pay1 x0 x1 (ix2 p q) = ∑ k : Fin 128, x0 (ix2 p k) * x1 (ix2 k q) := by
  unfold k1_pay1
  refine (RowOps.matmul_plain_apply (M := 1536) (K := 128) (N := 64) (φ₁ := .bf16) (φ₂ := .bf16)
    dot_S1536x128_S128x64_S1536x64_1_0_0_1_n_n rfl none
    (truncf .bf16 (shapeCast S1536x128 x0 shapeCasts_S1536x128_S1536x128) bitsLt_bf16_f32) (truncf .bf16 x1 bitsLt_bf16_f32) p q).trans ?_
  rw [shapeCast_self]
  rfl

/-- If the left block is rows `1536·n …` of `A` and the right block is `W`, the blocks' product at `(p, q)` is the
    arrays' product at any index whose row is `1536·n + p` and whose column is `q`: the two sums agree term by term. -/
theorem block_product (A : S12288x128.Idx → EReal) (W : S128x64.Idx → EReal)
    (x0 : Vec Ideal S1536x128 .f32) (x1 : Vec Ideal S128x64 .f32) (n : ℕ)
    (h0 : ∀ (p : Fin 1536) (k : Fin 128) (r : Fin 12288), r.val = n * 1536 + p.val → x0 (ix2 p k) = A (ix2 r k))
    (h1 : ∀ (k : Fin 128) (q q' : Fin 64), q'.val = q.val → x1 (ix2 k q) = W (ix2 k q'))
    (p : Fin 1536) (q : Fin 64) (i : S12288x64.Idx) (hi0 : (i 0).val = n * 1536 + p.val) (hi1 : (i 1).val = q.val) :
    k1_pay1 x0 x1 (ix2 p q) = MatSpec.mm (M := 12288) (K := 128) (N := 64) A W i := by
  rw [product_apply]
  show _ = ∑ k : Fin 128, A (ix2 (i 0) k) * W (ix2 k (i 1))
  refine Finset.sum_congr rfl fun k _ => ?_
  rw [h0 p k (i 0) hi0, h1 k q (i 1) hi1]

/-- The block indices at grid point `t`: the row-block windows sit at block `(t, 0)`, the weight window at `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of the left window's block at point `t` is row `1536·t + p` of its array. -/
theorem rows_apply (c : Dev nD) (t : Fin cfg1.N) (p : Fin 1536) (k : Fin 128) (r : Fin 12288)
    (hr : r.val = t.val * 1536 + p.val) :
    (R1.iblk V c 0 t : Vec Ideal S1536x128 .f32) (ix2 p k) = (V c main_v46 : S12288x128.Idx → EReal) (ix2 r k) := by
  obtain ⟨e00, e01, -⟩ := idx_facts t
  unfold R1.iblk
  rw [View.read_apply]
  show V c main_v46 _ = V c main_v46 _
  refine congrArg (V c main_v46) (funext fun a => Fin.ext ?_)
  match a with
  | ⟨0, _⟩ => show win1_0.index t (0 : Fin 2) * 1536 + 1 * p.val = r.val; omega
  | ⟨1, _⟩ => show win1_0.index t (1 : Fin 2) * 128 + 1 * k.val = k.val; omega

/-- The weight window's block at every point is the whole weight matrix. -/
theorem weights_apply (c : Dev nD) (t : Fin cfg1.N) (k : Fin 128) (q q' : Fin 64) (hq : q'.val = q.val) :
    (R1.iblk V c 1 t : Vec Ideal S128x64 .f32) (ix2 k q) = (V c main_arg4 : S128x64.Idx → EReal) (ix2 k q') := by
  obtain ⟨-, -, e10, e11, -⟩ := idx_facts t
  unfold R1.iblk
  rw [View.read_apply]
  show V c main_arg4 _ = V c main_arg4 _
  refine congrArg (V c main_arg4) (funext fun a => Fin.ext ?_)
  match a with
  | ⟨0, _⟩ => show win1_1.index t (0 : Fin 2) * 128 + 1 * k.val = k.val; omega
  | ⟨1, _⟩ => show win1_1.index t (1 : Fin 2) * 64 + 1 * q.val = q'.val; omega

/-- What point `t` writes back is block `t` of the product of the two whole arrays. -/
theorem flushed_eq (c : Dev nD) (t : Fin cfg1.N) :
    (R1.dat (F := Ideal) V c).flushed 2 t
      = ((cfg1.win 2).blk t).view.read (Elt Ideal)
          (MatSpec.mm (M := 12288) (K := 128) (N := 64) (V c main_v46) (V c main_arg4)) := by
  show (cfg1.win 2).cut (grid1.coords t) ((R1.dat (F := Ideal) V c).after 2 t) = _
  rw [R1.after_2]
  unfold R1.out
  rw [View.canon_unit_zero zero_offsets]
  simp only [View.ld_unit_zero (S := S1536x128) zero_offsets, View.ld_unit_zero (S := S128x64) zero_offsets]
  obtain ⟨-, -, -, -, e20, e21⟩ := idx_facts t
  refine funext fun (j : S1536x64.Idx) => ?_
  obtain ⟨p, q, rfl⟩ : ∃ (p : Fin 1536) (q : Fin 64), j = ix2 p q := ⟨j 0, j 1, eq_ix2 j⟩
  show k1_pay1 (R1.iblk V c 0 t) (R1.iblk V c 1 t) (ix2 p q)
    = MatSpec.mm (M := 12288) (K := 128) (N := 64) (V c main_v46) (V c main_arg4) (((cfg1.win 2).blk t).view.emb (ix2 p q))
  refine block_product (V c main_v46) (V c main_arg4) (R1.iblk V c 0 t) (R1.iblk V c 1 t) t.val
    (rows_apply V c t) (weights_apply V c t) p q _ ?_ ?_
  · show win1_2.index t (0 : Fin 2) * 1536 + 1 * p.val = t.val * 1536 + p.val; omega
  · show win1_2.index t (1 : Fin 2) * 64 + 1 * q.val = q.val; omega

/-- An index of the result array is in point `t`'s block iff each coordinate is in the block's range on its axis. -/
theorem mem_block (t : Fin cfg1.N) (i : S12288x64.Idx) :
    i ∈ ((cfg1.win 2).blk t).view.set ↔ ∀ a : Fin 2, win1_2.index t a * S1536x64.size a ≤ (i a).val
      ∧ (i a).val < win1_2.index t a * S1536x64.size a + S1536x64.size a := by
  show i ∈ ((View.whole main_v47).slice (win1_2.rect t)).set ↔ _
  rw [View.set_slice_whole, Rect.mem_set_unit]
  exact Iff.rfl

/-- Every index of the result array is written: row `r` lies in the block of point `r / 1536`. -/
theorem covered (i : S12288x64.Idx) :
    ∃ t : Fin cfg1.N, (cfg1.win 2).flush t = true ∧ i ∈ ((cfg1.win 2).blk t).view.set := by
  have hi0 : (i 0).val < 12288 := (i 0).isLt
  have hi1 : (i 1).val < 64 := (i 1).isLt
  have hN : cfg1.N = 8 := N_1
  have hT : (i 0).val / 1536 < cfg1.N := by rw [hN]; omega
  obtain ⟨-, -, -, -, e20, e21⟩ := idx_facts ⟨(i 0).val / 1536, hT⟩
  have e20' : win1_2.index ⟨(i 0).val / 1536, hT⟩ (0 : Fin 2) = (i 0).val / 1536 := e20
  refine ⟨⟨(i 0).val / 1536, hT⟩, flush1_2 _, ?_⟩
  rw [mem_block]
  intro a
  match a with
  | ⟨0, _⟩ =>
    show win1_2.index ⟨(i 0).val / 1536, hT⟩ (0 : Fin 2) * 1536 ≤ (i 0).val
      ∧ (i 0).val < win1_2.index ⟨(i 0).val / 1536, hT⟩ (0 : Fin 2) * 1536 + 1536
    omega
  | ⟨1, _⟩ =>
    show win1_2.index ⟨(i 0).val / 1536, hT⟩ (1 : Fin 2) * 64 ≤ (i 1).val
      ∧ (i 1).val < win1_2.index ⟨(i 0).val / 1536, hT⟩ (1 : Fin 2) * 64 + 64
    omega

/-- After the region's run the result array holds the product of the two arrays the region was entered with. -/
theorem final (c : Dev nD) :
    (R1.dat (F := Ideal) V c).arrAt 2 cfg1.N
      = MatSpec.mm (M := 12288) (K := 128) (N := 64) (V c main_v46) (V c main_arg4) :=
  (R1.dat (F := Ideal) V c).arrAt_eq_of_cover 2
    (MatSpec.mm (M := 12288) (K := 128) (N := 64) (V c main_v46) (V c main_arg4))
    (fun t _ => flushed_eq V c t) covered

end Cert.KernelIdeal.Value1

end
-- ==== Proof.KIValue2.lean ====
import proofs.«164775_j1236950581835_1_alg».proof.Proof.KIRegion2
import proofs.«164775_j1236950581835_1_alg».proof.Proof.LibMatSpec
import Idealize.ShloMosaic.Lib.Pipeline.Value
import Idealize.ShloMosaic.Lib.ValueIdx
import Idealize.ShloMosaic.PureOps.Ideal.Laws

/-! # The Gram product's result array is the embedding against its own transpose

The region runs over an 8×8 grid. At point `(i, j)` it takes rows `1536·i …` and rows `1536·j …` of the same
12288×64 array, contracts the two blocks along their 64 columns, and writes the 1536×1536 result back as block
`(i, j)` of the 12288×12288 result. Entry `(p, q)` of a point's product is the sum over `k` of the first block's
`(p, k)` times the second block's `(q, k)`; these are the array's rows `1536·i + p` and `1536·j + q`; so every block
written back is the matching block of the array against its own transpose. The 64 blocks cover every index (index
`(r, s)` lies in the block of point `(r / 1536, s / 1536)`), hence the result array ends holding that product, at
the extended reals, where narrowing an operand to bf16 changes nothing. -/

noncomputable section

open scoped BigOperators

namespace Cert.KernelIdeal.Value2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The offsets of a whole-buffer load or store are all zero. -/
theorem zero_offsets : (![0, 0] : Fin 2 → Nat) = fun _ => 0 := funext fun a => by fin_cases a <;> rfl

/-! ## A product with both operands contracted along their columns, read at an index

The left operand's index at result index `i` and contraction position `k` is `(i 0, k)`; the right operand's is
`(i 1, k)`: each operand's row axis is its one free axis, its column axis the one contracted. -/

theorem lhs_row (i : S1536x1536.Idx) (k : dot_S1536x64_S1536x64_S1536x1536_1_1_0_0_n_n.contr.Idx) :
    (dot_S1536x64_S1536x64_S1536x1536_1_1_0_0_n_n.lhsIdx i k 0).val = (i 0).val := by
  unfold DotDims.lhsIdx
  rw [dif_neg (show ¬(0 : Fin S1536x64.rank) ∈ dot_S1536x64_S1536x64_S1536x1536_1_1_0_0_n_n.lhsBatch by decide),
    dif_pos (show (0 : Fin S1536x64.rank) ∈ dot_S1536x64_S1536x64_S1536x1536_1_1_0_0_n_n.lhsNonContracting by decide)]
  rfl

theorem lhs_col (i : S1536x1536.Idx) (k : dot_S1536x64_S1536x64_S1536x1536_1_1_0_0_n_n.contr.Idx) :
    (dot_S1536x64_S1536x64_S1536x1536_1_1_0_0_n_n.lhsIdx i k 1).val = (k ⟨0, Nat.one_pos⟩).val :=
  dot_S1536x64_S1536x64_S1536x1536_1_1_0_0_n_n.lhsIdx_val_of_single rfl i k

theorem rhs_row (i : S1536x1536.Idx) (k : dot_S1536x64_S1536x64_S1536x1536_1_1_0_0_n_n.contr.Idx) :
    (dot_S1536x64_S1536x64_S1536x1536_1_1_0_0_n_n.rhsIdx i k 0).val = (i 1).val := by
  unfold DotDims.rhsIdx
  rw [dif_neg (show ¬(0 : Fin S1536x64.rank) ∈ dot_S1536x64_S1536x64_S1536x1536_1_1_0_0_n_n.rhsBatch by decide),
    dif_pos (show (0 : Fin S1536x64.rank) ∈ dot_S1536x64_S1536x64_S1536x1536_1_1_0_0_n_n.rhsNonContracting by decide)]
  rfl

theorem rhs_col (i : S1536x1536.Idx) (k : dot_S1536x64_S1536x64_S1536x1536_1_1_0_0_n_n.contr.Idx) :
    (dot_S1536x64_S1536x64_S1536x1536_1_1_0_0_n_n.rhsIdx i k 1).val = (k ⟨0, Nat.one_pos⟩).val :=
  dot_S1536x64_S1536x64_S1536x1536_1_1_0_0_n_n.rhsIdx_val_of_single rfl i k

/-- The contraction's sum, re-indexed by the one contracted coordinate. -/
theorem columns_sum {φ₁ φ₂ : FTy} (l : FVec Ideal S1536x64 φ₁) (r : FVec Ideal S1536x64 φ₂) (p q : Fin 1536) :
    (∑ k : dot_S1536x64_S1536x64_S1536x1536_1_1_0_0_n_n.contr.Idx, l (dot_S1536x64_S1536x64_S1536x1536_1_1_0_0_n_n.lhsIdx (ix2 p q) k) * r (dot_S1536x64_S1536x64_S1536x1536_1_1_0_0_n_n.rhsIdx (ix2 p q) k))
      = ∑ k : Fin 64, l (ix2 p k) * r (ix2 q k) := by
  rw [← Equiv.sum_comp (contrEquiv1 dot_S1536x64_S1536x64_S1536x1536_1_1_0_0_n_n 64 rfl rfl).symm]
  refine Finset.sum_congr rfl fun k _ => ?_
  have hk := contrEquiv1_symm_val dot_S1536x64_S1536x64_S1536x1536_1_1_0_0_n_n 64 rfl rfl k
  have el : dot_S1536x64_S1536x64_S1536x1536_1_1_0_0_n_n.lhsIdx (ix2 p q) ((contrEquiv1 dot_S1536x64_S1536x64_S1536x1536_1_1_0_0_n_n 64 rfl rfl).symm k) = ix2 p k :=
    funext fun a => Fin.ext (by
      match a with
      | ⟨0, _⟩ => exact lhs_row _ _
      | ⟨1, _⟩ => exact (lhs_col _ _).trans hk)
  have er : dot_S1536x64_S1536x64_S1536x1536_1_1_0_0_n_n.rhsIdx (ix2 p q) ((contrEquiv1 dot_S1536x64_S1536x64_S1536x1536_1_1_0_0_n_n 64 rfl rfl).symm k) = ix2 q k :=
    funext fun a => Fin.ext (by
      match a with
      | ⟨0, _⟩ => exact rhs_row _ _
      | ⟨1, _⟩ => exact (rhs_col _ _).trans hk)
  rw [el, er]

/-- The product into the zero splat at `(p, q)`: row `p` of the left operand against row `q` of the right one. -/
theorem matmul_nt_apply {φ₁ φ₂ : FTy} (prec : Option ContractPrecision) (l : FVec Ideal S1536x64 φ₁) (r : FVec Ideal S1536x64 φ₂)
    (p q : Fin 1536) :
    matmul dot_S1536x64_S1536x64_S1536x1536_1_1_0_0_n_n prec l r (constant S1536x1536 .f32 0x00000000#32) (ix2 p q) = ∑ k : Fin 64, l (ix2 p k) * r (ix2 q k) := by
  show FloatOps.matmul dot_S1536x64_S1536x64_S1536x1536_1_1_0_0_n_n prec l r (constant S1536x1536 .f32 0x00000000#32) (ix2 p q) = _
  rw [Ideal.matmul_constant_zero_apply]
  exact columns_sum l r p q

/-! ## From the blocks to the array -/

/-- The body's product of two blocks at `(p, q)` (the casts of a block to its own shape change nothing). -/
theorem product_apply (x0 x1 : Vec Ideal S1536x64 .f32) (p q : Fin 1536) :
    k2_pay1 x0 x1 (ix2 p q) = ∑ k : Fin 64, x0 (ix2 p k) * x1 (ix2 q k) := by
  unfold k2_pay1
  refine (matmul_nt_apply (φ₁ := .bf16) (φ₂ := .bf16) none
    (truncf .bf16 (shapeCast S1536x64 x0 shapeCasts_S1536x64_S1536x64) bitsLt_bf16_f32)
    (truncf .bf16 (shapeCast S1536x64 x1 shapeCasts_S1536x64_S1536x64) bitsLt_bf16_f32) p q).trans ?_
  rw [shapeCast_self, shapeCast_self]
  rfl

/-- If the first block is rows `1536·n0 …` of `L` and the second is rows `1536·n1 …` of `L`, the blocks' product at
    `(p, q)` is `L` against its transpose at any index whose row is `1536·n0 + p` and whose column is `1536·n1 + q`:
    the two sums agree term by term. -/
theorem block_product (L : S12288x64.Idx → EReal) (x0 x1 : Vec Ideal S1536x64 .f32) (n0 n1 : ℕ)
    (h0 : ∀ (p : Fin 1536) (k : Fin 64) (r : Fin 12288), r.val = n0 * 1536 + p.val → x0 (ix2 p k) = L (ix2 r k))
    (h1 : ∀ (p : Fin 1536) (k : Fin 64) (r : Fin 12288), r.val = n1 * 1536 + p.val → x1 (ix2 p k) = L (ix2 r k))
    (p q : Fin 1536) (i : S12288x12288.Idx) (hi0 : (i 0).val = n0 * 1536 + p.val) (hi1 : (i 1).val = n1 * 1536 + q.val) :
    k2_pay1 x0 x1 (ix2 p q) = MatSpec.gram (M := 12288) (K := 64) L i := by
  rw [product_apply]
  show _ = ∑ k : Fin 64, L (ix2 (i 0) k) * L (ix2 (i 1) k)
  refine Finset.sum_congr rfl fun k _ => ?_
  rw [h0 p k (i 0) hi0, h1 q k (i 1) hi1]

/-- The block indices at grid point `t = 8·i + j`: the first window sits at block `(i, 0)`, the second at `(j, 0)`,
    the result's at `(i, j)`. -/
theorem idx_facts : ∀ t : Fin cfg2.N, win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = t.val % 8 :=
  (by decide +kernel : ∀ t : Fin grid2.N, _)

/-- Row `p` of the first window's block at point `t` is row `1536·(t / 8) + p` of the array. -/
theorem rows0_apply (c : Dev nD) (t : Fin cfg2.N) (p : Fin 1536) (k : Fin 64) (r : Fin 12288)
    (hr : r.val = t.val / 8 * 1536 + p.val) :
    (R2.iblk V c 0 t : Vec Ideal S1536x64 .f32) (ix2 p k) = (V c main_v92 : S12288x64.Idx → EReal) (ix2 r k) := by
  obtain ⟨e00, e01, -⟩ := idx_facts t
  unfold R2.iblk
  rw [View.read_apply]
  show V c main_v92 _ = V c main_v92 _
  refine congrArg (V c main_v92) (funext fun a => Fin.ext ?_)
  match a with
  | ⟨0, _⟩ => show win2_0.index t (0 : Fin 2) * 1536 + 1 * p.val = r.val; omega
  | ⟨1, _⟩ => show win2_0.index t (1 : Fin 2) * 64 + 1 * k.val = k.val; omega

/-- Row `p` of the second window's block at point `t` is row `1536·(t % 8) + p` of the same array. -/
theorem rows1_apply (c : Dev nD) (t : Fin cfg2.N) (p : Fin 1536) (k : Fin 64) (r : Fin 12288)
    (hr : r.val = t.val % 8 * 1536 + p.val) :
    (R2.iblk V c 1 t : Vec Ideal S1536x64 .f32) (ix2 p k) = (V c main_v92 : S12288x64.Idx → EReal) (ix2 r k) := by
  obtain ⟨-, -, e10, e11, -⟩ := idx_facts t
  unfold R2.iblk
  rw [View.read_apply]
  show V c main_v92 _ = V c main_v92 _
  refine congrArg (V c main_v92) (funext fun a => Fin.ext ?_)
  match a with
  | ⟨0, _⟩ => show win2_1.index t (0 : Fin 2) * 1536 + 1 * p.val = r.val; omega
  | ⟨1, _⟩ => show win2_1.index t (1 : Fin 2) * 64 + 1 * k.val = k.val; omega

/-- What point `t` writes back is block `t` of the array against its own transpose. -/
theorem flushed_eq (c : Dev nD) (t : Fin cfg2.N) :
    (R2.dat (F := Ideal) V c).flushed 2 t
      = ((cfg2.win 2).blk t).view.read (Elt Ideal) (MatSpec.gram (M := 12288) (K := 64) (V c main_v92)) := by
  show (cfg2.win 2).cut (grid2.coords t) ((R2.dat (F := Ideal) V c).after 2 t) = _
  rw [R2.after_2]
  unfold R2.out
  rw [View.canon_unit_zero zero_offsets]
  simp only [View.ld_unit_zero (S := S1536x64) zero_offsets]
  obtain ⟨-, -, -, -, e20, e21⟩ := idx_facts t
  refine funext fun (j : S1536x1536.Idx) => ?_
  obtain ⟨p, q, rfl⟩ : ∃ (p q : Fin 1536), j = ix2 p q := ⟨j 0, j 1, eq_ix2 j⟩
  show k2_pay1 (R2.iblk V c 0 t) (R2.iblk V c 1 t) (ix2 p q)
    = MatSpec.gram (M := 12288) (K := 64) (V c main_v92) (((cfg2.win 2).blk t).view.emb (ix2 p q))
  refine block_product (V c main_v92) (R2.iblk V c 0 t) (R2.iblk V c 1 t) (t.val / 8) (t.val % 8)
    (rows0_apply V c t) (rows1_apply V c t) p q _ ?_ ?_
  · show win2_2.index t (0 : Fin 2) * 1536 + 1 * p.val = t.val / 8 * 1536 + p.val; omega
  · show win2_2.index t (1 : Fin 2) * 1536 + 1 * q.val = t.val % 8 * 1536 + q.val; omega

/-- An index of the result array is in point `t`'s block iff each coordinate is in the block's range on its axis. -/
theorem mem_block (t : Fin cfg2.N) (i : S12288x12288.Idx) :
    i ∈ ((cfg2.win 2).blk t).view.set ↔ ∀ a : Fin 2, win2_2.index t a * S1536x1536.size a ≤ (i a).val
      ∧ (i a).val < win2_2.index t a * S1536x1536.size a + S1536x1536.size a := by
  show i ∈ ((View.whole main_v93).slice (win2_2.rect t)).set ↔ _
  rw [View.set_slice_whole, Rect.mem_set_unit]
  exact Iff.rfl

/-- Every index of the result array is written: index `(r, s)` lies in the block of point `8·(r / 1536) + s / 1536`. -/
theorem covered (i : S12288x12288.Idx) :
    ∃ t : Fin cfg2.N, (cfg2.win 2).flush t = true ∧ i ∈ ((cfg2.win 2).blk t).view.set := by
  have hi0 : (i 0).val < 12288 := (i 0).isLt
  have hi1 : (i 1).val < 12288 := (i 1).isLt
  have hN : cfg2.N = 64 := N_2
  have hT : (i 0).val / 1536 * 8 + (i 1).val / 1536 < cfg2.N := by rw [hN]; omega
  obtain ⟨-, -, -, -, e20, e21⟩ := idx_facts ⟨(i 0).val / 1536 * 8 + (i 1).val / 1536, hT⟩
  have e20' : win2_2.index ⟨(i 0).val / 1536 * 8 + (i 1).val / 1536, hT⟩ (0 : Fin 2)
      = ((i 0).val / 1536 * 8 + (i 1).val / 1536) / 8 := e20
  have e21' : win2_2.index ⟨(i 0).val / 1536 * 8 + (i 1).val / 1536, hT⟩ (1 : Fin 2)
      = ((i 0).val / 1536 * 8 + (i 1).val / 1536) % 8 := e21
  refine ⟨⟨(i 0).val / 1536 * 8 + (i 1).val / 1536, hT⟩, flush2_2 _, ?_⟩
  rw [mem_block]
  intro a
  match a with
  | ⟨0, _⟩ =>
    show win2_2.index ⟨(i 0).val / 1536 * 8 + (i 1).val / 1536, hT⟩ (0 : Fin 2) * 1536 ≤ (i 0).val
      ∧ (i 0).val < win2_2.index ⟨(i 0).val / 1536 * 8 + (i 1).val / 1536, hT⟩ (0 : Fin 2) * 1536 + 1536
    omega
  | ⟨1, _⟩ =>
    show win2_2.index ⟨(i 0).val / 1536 * 8 + (i 1).val / 1536, hT⟩ (1 : Fin 2) * 1536 ≤ (i 1).val
      ∧ (i 1).val < win2_2.index ⟨(i 0).val / 1536 * 8 + (i 1).val / 1536, hT⟩ (1 : Fin 2) * 1536 + 1536
    omega

/-- After the region's run the result array holds the array the region was entered with, against its own transpose. -/
theorem final (c : Dev nD) :
    (R2.dat (F := Ideal) V c).arrAt 2 cfg2.N = MatSpec.gram (M := 12288) (K := 64) (V c main_v92) :=
  (R2.dat (F := Ideal) V c).arrAt_eq_of_cover 2 (MatSpec.gram (M := 12288) (K := 64) (V c main_v92))
    (fun t _ => flushed_eq V c t) covered

end Cert.KernelIdeal.Value2

end
-- ==== Proof.KIBridge.lean ====
import proofs.«164775_j1236950581835_1_alg».proof.Proof.KIChain
import proofs.«164775_j1236950581835_1_alg».proof.Proof.LibMatSpec
import proofs.«164775_j1236950581835_1_alg».proof.Proof.LibRowOps
import proofs.«164775_j1236950581835_1_alg».proof.Proof.Gen.ReferenceIdeal.Run
import Idealize.ShloMosaic.Lib.StableHlo.Run
import Idealize.ShloMosaic.Lib.ValueIdx
import Idealize.ShloMosaic.Lib.ValueLayout
import Mathlib.Algebra.BigOperators.Group.Finset.Basic
import Mathlib.Logic.Function.Basic

/-! # The value bridge at the extended reals

The kernel program is three matrix products with the same graph-convolution stretch of host operations after the
first and after the second; the reference program is the same host operations around three host products, the last
against a transpose. This module shows that the kernel program's final result array, read off the chain of buffer
contents between its items, is the reference program's composed term of the arguments.

The road: the stretch is named once, as functions of the arrays it reads (the index vectors of the edge list with
the self loops appended, the degree normalisation, one layer gather, weight, scatter-add, bias), generic in the
float values. Each host stretch of the kernel program is read off the buffers as such a function of the contents it
starts from. The reference's composed term is the same functions around its three products, the namesake shape
records of the two programs being equal. At the extended reals each host product is the plain sum over the
contracted axis, the last one, against a transpose, the sum of a row against a row. The two sides are then the same
term of the arguments, on which the two memories agree. -/

noncomputable section

namespace Cert.KernelIdeal.Bridge

open Cert.KernelIdeal Cert.KernelIdeal.Gen
open Idealize.ShloMosaic Idealize.ShloMosaic.TcCoe Idealize.SL.Sem Idealize.ShloMosaic.StableHlo

/-- The results of a line of operations left inside a concatenation's operand list, rewritten one by one. -/
macro "after_results_rest" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-! ## The host stretch as named stages

Both programs apply the same graph-convolution stretch twice: from the edge list (two rows of node indices) they
form the source and target index vectors with the nodes' own indices appended (the self loops), count each node's
degree by a scatter-add of ones, take the reciprocal square root of it, weight each edge by the product of that factor
at its two ends, gather the node rows at the sources, scale them by the edge weights, scatter-add them at the targets,
and add a bias row. The stages below are that stretch as functions of the arrays it reads, generic in the float values. -/

section Stages

variable {F : FTy → Type} [FloatOps F]

/-- Row 0 of the edge list (the sources), flattened, then the nodes' own indices. -/
def srcIx (e : (⟨S2x393216, .i32⟩ : BufTy).Contents (Elt F)) : (⟨S405504, .i32⟩ : BufTy).Contents (Elt F) :=
  concatenate S405504 0 [⟨S393216, (shapeCast _ (extractStridedSlice S1x393216 ![0, 0] e slices_S2x393216_S1x393216_0_0) shapeCasts_S1x393216_S393216)⟩, ⟨S12288, (iotaInDim S12288 32 0)⟩] concatenates_S393216_S12288_S405504_d0

/-- Row 1 of the edge list (the targets), flattened, then the nodes' own indices. -/
def dstIx (e : (⟨S2x393216, .i32⟩ : BufTy).Contents (Elt F)) : (⟨S405504, .i32⟩ : BufTy).Contents (Elt F) :=
  concatenate S405504 0 [⟨S393216, (shapeCast _ (extractStridedSlice S1x393216 ![1, 0] e slices_S2x393216_S1x393216_1_0) shapeCasts_S1x393216_S393216)⟩, ⟨S12288, (iotaInDim S12288 32 0)⟩] concatenates_S393216_S12288_S405504_d0

/-- A negative index counted from the end: i + 12288 where i is negative, else i. -/
def wrapIx (i : (⟨S405504, .i32⟩ : BufTy).Contents (Elt F)) : (⟨S405504, .i32⟩ : BufTy).Contents (Elt F) :=
  select (cmpi .slt i (broadcastInDim S405504 ![] bcast_S_S405504 (constantI S_ 32 0#32))) (addi i (broadcastInDim S405504 ![] bcast_S_S405504 (constantI S_ 32 12288#32))) i

/-- Each node's degree: ones scatter-added at the targets. -/
def degree (e : (⟨S2x393216, .i32⟩ : BufTy).Contents (Elt F)) : (⟨S12288, .f32⟩ : BufTy).Contents (Elt F) :=
  Host.scatterAdd scatter_S12288_S405504x1_S405504_n_0_0_1 (broadcastInDim S12288 ![] bcast_S_S12288 (constant S_ .f32 0x00000000#32)) (broadcastInDim S405504x1 ![0] bcast_S405504_S405504x1_0 (dstIx e)) (broadcastInDim S405504 ![] bcast_S_S405504 (constant S_ .f32 0x3F800000#32))

/-- The reciprocal square root of the degree (bounded below by a small positive constant), per node. -/
def dinv (e : (⟨S2x393216, .i32⟩ : BufTy).Contents (Elt F)) : (⟨S12288, .f32⟩ : BufTy).Contents (Elt F) :=
  Host.rsqrt (maximumf (degree e) (broadcastInDim S12288 ![] bcast_S_S12288 (constant S_ .f32 0x2B8CBCCC#32)))

/-- Each edge's weight: the factor at its source times the factor at its target. -/
def edgeW (e : (⟨S2x393216, .i32⟩ : BufTy).Contents (Elt F)) : (⟨S405504, .f32⟩ : BufTy).Contents (Elt F) :=
  mulf (Host.gather gather_S12288_S405504x1_S405504_n_0_n_n_0_1_1 (dinv e) (broadcastInDim S405504x1 ![0] bcast_S405504_S405504x1_0 (wrapIx (srcIx e))))
    (Host.gather gather_S12288_S405504x1_S405504_n_0_n_n_0_1_1 (dinv e) (broadcastInDim S405504x1 ![0] bcast_S405504_S405504x1_0 (wrapIx (dstIx e))))

/-- One stretch at width 128: gather at the sources, weight, scatter-add at the targets, add the bias row. -/
def layer128 (h : (⟨S12288x128, .f32⟩ : BufTy).Contents (Elt F)) (e : (⟨S2x393216, .i32⟩ : BufTy).Contents (Elt F))
    (b : (⟨S128, .f32⟩ : BufTy).Contents (Elt F)) : (⟨S12288x128, .f32⟩ : BufTy).Contents (Elt F) :=
  addf (Host.scatterAdd scatter_S12288x128_S405504x1_S405504x128_1_0_0_1 (broadcastInDim S12288x128 ![] bcast_S_S12288x128 (constant S_ .f32 0x00000000#32)) (broadcastInDim S405504x1 ![0] bcast_S405504_S405504x1_0 (dstIx e))
      (mulf (Host.gather gather_S12288x128_S405504x1_S405504x128_1_0_n_n_0_1_1128 h (broadcastInDim S405504x1 ![0] bcast_S405504_S405504x1_0 (wrapIx (srcIx e))))
        (broadcastInDim S405504x128 ![0, 1] bcast_S405504x1_S405504x128_0_1 (broadcastInDim S405504x1 ![0] bcast_S405504_S405504x1_0 (edgeW e)))))
    (broadcastInDim S12288x128 ![0, 1] bcast_S1x128_S12288x128_0_1 (broadcastInDim S1x128 ![1] bcast_S128_S1x128_1 b))

/-- The positive part, at width 128. -/
def relu128 (x : (⟨S12288x128, .f32⟩ : BufTy).Contents (Elt F)) : (⟨S12288x128, .f32⟩ : BufTy).Contents (Elt F) :=
  maximumf x (broadcastInDim S12288x128 ![] bcast_S_S12288x128 (constant S_ .f32 0x00000000#32))

/-- The same stretch at width 64. -/
def layer64 (h : (⟨S12288x64, .f32⟩ : BufTy).Contents (Elt F)) (e : (⟨S2x393216, .i32⟩ : BufTy).Contents (Elt F))
    (b : (⟨S64, .f32⟩ : BufTy).Contents (Elt F)) : (⟨S12288x64, .f32⟩ : BufTy).Contents (Elt F) :=
  addf (Host.scatterAdd scatter_S12288x64_S405504x1_S405504x64_1_0_0_1 (broadcastInDim S12288x64 ![] bcast_S_S12288x64 (constant S_ .f32 0x00000000#32)) (broadcastInDim S405504x1 ![0] bcast_S405504_S405504x1_0 (dstIx e))
      (mulf (Host.gather gather_S12288x64_S405504x1_S405504x64_1_0_n_n_0_1_164 h (broadcastInDim S405504x1 ![0] bcast_S405504_S405504x1_0 (wrapIx (srcIx e))))
        (broadcastInDim S405504x64 ![0, 1] bcast_S405504x1_S405504x64_0_1 (broadcastInDim S405504x1 ![0] bcast_S405504_S405504x1_0 (edgeW e)))))
    (broadcastInDim S12288x64 ![0, 1] bcast_S1x64_S12288x64_0_1 (broadcastInDim S1x64 ![1] bcast_S64_S1x64_1 b))

end Stages

/-! ## The kernel program's stretches, read off the buffers -/

section KernelSide

variable {F : FTy → Type} [FloatOps F]

set_option maxRecDepth 8192 in
set_option maxHeartbeats 4000000 in
/-- The first stretch leaves, in its last buffer, the width-128 stage of what it read. -/
theorem stretch1 (V : Valuation τ sig (Elt F)) :
    StableHlo.after hostOps1 V (Proc.devRef .tc main_v45)
      = layer128 (V (Proc.devRef .tc main_v0)) (V (Proc.devRef .tc main_arg1)) (V (Proc.devRef .tc main_arg3)) := by
  after_results_simp
  after_results_rest
  rfl

set_option maxRecDepth 8192 in
set_option maxHeartbeats 4000000 in
/-- The positive part after it. -/
theorem stretch1_relu (V : Valuation τ sig (Elt F)) :
    StableHlo.after hostOps1_1 V (Proc.devRef .tc main_v46) = relu128 (V (Proc.devRef .tc main_v45)) := by
  after_results_simp
  rfl

set_option maxRecDepth 8192 in
set_option maxHeartbeats 4000000 in
/-- The second stretch leaves, in its last buffer, the width-64 stage of what it read. -/
theorem stretch2 (V : Valuation τ sig (Elt F)) :
    StableHlo.after hostOps2 V (Proc.devRef .tc main_v92)
      = layer64 (V (Proc.devRef .tc main_v47)) (V (Proc.devRef .tc main_arg1)) (V (Proc.devRef .tc main_arg5)) := by
  after_results_simp
  after_results_rest
  rfl

end KernelSide

/-! ## The reference program's result over the same stages -/

section ReferenceSide

variable {F : FTy → Type} [FloatOps F]

/-- The reference's activations before its last product: the two stretches around its two matrix products. -/
def refL (m' : (ℓ : Loc Cert.ReferenceIdeal.nD Cert.ReferenceIdeal.τ Cert.ReferenceIdeal.sig) → Buf (Elt F) ℓ)
    (c : Dev Cert.ReferenceIdeal.nD) : (⟨S12288x64, .f32⟩ : BufTy).Contents (Elt F) :=
  layer64
    (Host.dotGeneral Cert.ReferenceIdeal.dot_S12288x128_S128x64_S12288x64_1_0_0_1_n_n none
      (relu128 (layer128
        (Host.dotGeneral Cert.ReferenceIdeal.dot_S12288x128_S128x128_S12288x128_1_0_0_1_n_n none
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg2)))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg3))))
      (m' ((c.tc : Thread Cert.ReferenceIdeal.nD Cert.ReferenceIdeal.τ).loc Cert.ReferenceIdeal.main_arg4)))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg5))

set_option maxRecDepth 8192 in
set_option maxHeartbeats 4000000 in
/-- The reference's result is its last product of those activations against their transpose. -/
theorem ref_eq (m' : (ℓ : Loc Cert.ReferenceIdeal.nD Cert.ReferenceIdeal.τ Cert.ReferenceIdeal.sig) → Buf (Elt F) ℓ)
    (c : Dev Cert.ReferenceIdeal.nD) :
    Cert.ReferenceIdeal.Value.res_main_v94 m' c
      = Host.dotGeneral Cert.ReferenceIdeal.dot_S12288x64_S64x12288_S12288x12288_1_0_0_1_n_n none (refL m' c)
          (transpose Cert.ReferenceIdeal.S64x12288 [1, 0] (refL m' c) Cert.ReferenceIdeal.Facts₀.transposes_S12288x64_S64x12288_1_0) := by
  unfold Cert.ReferenceIdeal.Value.res_main_v94
  rfl

end ReferenceSide

/-! ## The three products as plain sums (extended reals) -/

section Products

open Idealize.ShloMosaic.ValueIdx

/-- The host's first product is the plain sum over the contracted axis. -/
theorem dot1_eq (x : FVec Ideal Cert.ReferenceIdeal.S12288x128 .f32) (w : FVec Ideal Cert.ReferenceIdeal.S128x128 .f32) :
    Host.dotGeneral (F := Ideal) Cert.ReferenceIdeal.dot_S12288x128_S128x128_S12288x128_1_0_0_1_n_n none x w
      = MatSpec.mm (M := 12288) (K := 128) (N := 128) x w := by
  funext i
  rw [eq_ix2 i]
  exact RowOps.dotGeneral_plain_apply _ rfl none x w (i 0) (i 1)

/-- The host's second product likewise. -/
theorem dot2_eq (x : FVec Ideal Cert.ReferenceIdeal.S12288x128 .f32) (w : FVec Ideal Cert.ReferenceIdeal.S128x64 .f32) :
    Host.dotGeneral (F := Ideal) Cert.ReferenceIdeal.dot_S12288x128_S128x64_S12288x64_1_0_0_1_n_n none x w
      = MatSpec.mm (M := 12288) (K := 128) (N := 64) x w := by
  funext i
  rw [eq_ix2 i]
  exact RowOps.dotGeneral_plain_apply _ rfl none x w (i 0) (i 1)

/-- The host's last product, an array against its own transpose: entry (p, q) sums row p against row q. -/
theorem dot3_eq (l : FVec Ideal Cert.ReferenceIdeal.S12288x64 .f32) :
    Host.dotGeneral (F := Ideal) Cert.ReferenceIdeal.dot_S12288x64_S64x12288_S12288x12288_1_0_0_1_n_n none l
        (transpose Cert.ReferenceIdeal.S64x12288 [1, 0] l Cert.ReferenceIdeal.Facts₀.transposes_S12288x64_S64x12288_1_0)
      = MatSpec.gram (M := 12288) (K := 64) l := by
  funext i
  rw [eq_ix2 i]
  refine (RowOps.dotGeneral_plain_apply _ rfl none l _ (i 0) (i 1)).trans ?_
  refine Finset.sum_congr rfl fun k _ => ?_
  exact congrArg (l (ix2 (i 0) k) * ·) (transpose_ix2_apply l _ k (i 1))

end Products

/-! ## The kernel program's chain of buffer contents, stage by stage -/

section Assembly

variable (m : (ℓ : Loc nD τ sig) → Buf (Elt Ideal) ℓ)
  (o1 : (c : Dev nD) → Buf (Elt Ideal) ((c : Thread nD τ).loc main_v0))
  (o4 : Chain.TcVal Ideal → (c : Dev nD) → Buf (Elt Ideal) ((c : Thread nD τ).loc main_v47))
  (o6 : Chain.TcVal Ideal → (c : Dev nD) → Buf (Elt Ideal) ((c : Thread nD τ).loc main_v93))

/-- After the first product, its result array holds what the product left. -/
theorem X1_v0 (c : Dev nD) : Chain.X1 m o1 c (Proc.devRef .tc main_v0) = o1 c := by
  unfold Chain.X1; rw [Function.update_self]

/-- After the first product, every other array is as launched. -/
theorem X1_of (c : Dev nD) (r : Ref sig .tc) (h : r ≠ main_v0) :
    Chain.X1 m o1 c (Proc.devRef .tc r) = m ((c : Thread nD τ).loc r) := by
  unfold Chain.X1; rw [Function.update_of_ne (StableHlo.devRef_ne_of_ne h)]

/-- The first stretch and the positive part leave alone what they do not write. -/
theorem X3_of (c : Dev nD) (r : Ref sig .tc) (h1 : r ∉ hostOps1_1_W) (h2 : r ∉ hostOps1_W) :
    Chain.X3 m o1 c (Proc.devRef .tc r) = Chain.X1 m o1 c (Proc.devRef .tc r) := by
  unfold Chain.X3
  rw [StableHlo.after_of_writes_sub hostOps1_1 _ hostOps1_1_writes h1, StableHlo.after_of_writes_sub hostOps1 _ hostOps1_writes h2]

set_option maxRecDepth 8192 in
/-- The hidden activations: the positive part of the width-128 stage of the first product. -/
theorem X3_v46 (c : Dev nD) :
    Chain.X3 m o1 c (Proc.devRef .tc main_v46)
      = relu128 (layer128 (o1 c) (m ((c : Thread nD τ).loc main_arg1)) (m ((c : Thread nD τ).loc main_arg3))) := by
  unfold Chain.X3
  rw [stretch1_relu, stretch1, X1_v0, X1_of m o1 c main_arg1 (by decide), X1_of m o1 c main_arg3 (by decide)]

/-- The same, read the way the second product's region reads what it is entered from. -/
theorem X3r_v46 (c : Dev nD) :
    Chain.X3r m o1 c main_v46
      = relu128 (layer128 (o1 c) (m ((c : Thread nD τ).loc main_arg1)) (m ((c : Thread nD τ).loc main_arg3))) :=
  X3_v46 m o1 c

/-- The second weight array is, where the second product reads it, as launched. -/
theorem X3r_arg4 (c : Dev nD) : Chain.X3r m o1 c main_arg4 = m ((c : Thread nD τ).loc main_arg4) :=
  (X3_of m o1 c main_arg4 (by decide) (by decide)).trans (X1_of m o1 c main_arg4 (by decide))

/-- After the second product, its result array holds what the product left. -/
theorem X4_v47 (c : Dev nD) : Chain.X4 m o1 o4 c (Proc.devRef .tc main_v47) = o4 (Chain.X3r m o1) c := by
  unfold Chain.X4; rw [Function.update_self]

/-- After the second product, every other array is as before it. -/
theorem X4_of (c : Dev nD) (r : Ref sig .tc) (h : r ≠ main_v47) :
    Chain.X4 m o1 o4 c (Proc.devRef .tc r) = Chain.X3 m o1 c (Proc.devRef .tc r) := by
  unfold Chain.X4; rw [Function.update_of_ne (StableHlo.devRef_ne_of_ne h)]

/-- An argument no item writes is, before the second stretch, as launched. -/
theorem X4_arg (c : Dev nD) (r : Ref sig .tc) (h0 : r ≠ main_v47) (h1 : r ∉ hostOps1_1_W) (h2 : r ∉ hostOps1_W) (h3 : r ≠ main_v0) :
    Chain.X4 m o1 o4 c (Proc.devRef .tc r) = m ((c : Thread nD τ).loc r) :=
  (X4_of m o1 o4 c r h0).trans ((X3_of m o1 c r h1 h2).trans (X1_of m o1 c r h3))

set_option maxRecDepth 8192 in
/-- The kernel program's result: the Gram product of the width-64 stage of the second product of the hidden
    activations, each product being what its region is known to leave. -/
theorem kernel_eq
    (h1 : ∀ c, o1 c = MatSpec.mm (M := 12288) (K := 128) (N := 128) (m ((c.tc : Thread nD τ).loc main_arg0)) (m ((c.tc : Thread nD τ).loc main_arg2)))
    (h4 : ∀ (V : Chain.TcVal Ideal) c, o4 V c = MatSpec.mm (M := 12288) (K := 128) (N := 64) (V c main_v46) (V c main_arg4))
    (h6 : ∀ (V : Chain.TcVal Ideal) c, o6 V c = MatSpec.gram (M := 12288) (K := 64) (V c main_v92))
    (c : Dev nD) :
    Chain.X6 m o1 o4 o6 c main_v93
      = MatSpec.gram (M := 12288) (K := 64)
          (layer64
            (MatSpec.mm (M := 12288) (K := 128) (N := 64)
              (relu128 (layer128
                (MatSpec.mm (M := 12288) (K := 128) (N := 128) (m ((c.tc : Thread nD τ).loc main_arg0)) (m ((c.tc : Thread nD τ).loc main_arg2)))
                (m ((c.tc : Thread nD τ).loc main_arg1)) (m ((c.tc : Thread nD τ).loc main_arg3))))
              (m ((c.tc : Thread nD τ).loc main_arg4)))
            (m ((c.tc : Thread nD τ).loc main_arg1)) (m ((c.tc : Thread nD τ).loc main_arg5))) := by
  rw [Chain.X6_result, h6]
  refine congrArg (MatSpec.gram (M := 12288) (K := 64)) ?_
  show Chain.X5 m o1 o4 c (Proc.devRef .tc main_v92) = _
  unfold Chain.X5
  rw [stretch2, X4_v47, h4,
    X4_arg m o1 o4 c main_arg1 (by decide) (by decide) (by decide) (by decide),
    X4_arg m o1 o4 c main_arg5 (by decide) (by decide) (by decide) (by decide)]
  rw [X3r_v46, X3r_arg4, h1]

set_option maxRecDepth 8192 in
/-- THE VALUE BRIDGE: the kernel program's final result array is the reference program's composed term. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (o1 : (c : Dev nD) → Buf (Elt Ideal) ((c : Thread nD τ).loc main_v0))
    (o4 : Chain.TcVal Ideal → (c : Dev nD) → Buf (Elt Ideal) ((c : Thread nD τ).loc main_v47))
    (o6 : Chain.TcVal Ideal → (c : Dev nD) → Buf (Elt Ideal) ((c : Thread nD τ).loc main_v93))
    (h1 : ∀ c, o1 c = MatSpec.mm (M := 12288) (K := 128) (N := 128) (m ((c.tc : Thread nD τ).loc main_arg0)) (m ((c.tc : Thread nD τ).loc main_arg2)))
    (h4 : ∀ (V : Chain.TcVal Ideal) c, o4 V c = MatSpec.mm (M := 12288) (K := 128) (N := 64) (V c main_v46) (V c main_arg4))
    (h6 : ∀ (V : Chain.TcVal Ideal) c, o6 V c = MatSpec.gram (M := 12288) (K := 64) (V c main_v92))
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Chain.X6 m o1 o4 o6 c main_v93 = Cert.ReferenceIdeal.Value.res_main_v94 m' c := by
  obtain ⟨e0, e1, e2, e3, e4, e5⟩ := hagree
  rw [kernel_eq m o1 o4 o6 h1 h4 h6 c, ref_eq m' c, dot3_eq]
  unfold refL
  rw [dot2_eq, dot1_eq, e0, e1, e2, e3, e4, e5]

end Assembly

end Cert.KernelIdeal.Bridge

end
-- ==== Proof.lean ====
/- The certificate of a two-layer graph convolution followed by a Gram-matrix decoder.

   The kernel program computes  h = relu(Â (x W1) + b1),  z = Â (h W2) + b2,  out = z zᵀ,  where Â is the
   symmetrically normalised adjacency (with self-loops) applied by a gather, a scaling and a scatter-add on the host,
   and the three dense products (x W1, h W2, z zᵀ) are Pallas kernels: each multiplies a block of 1536 rows by its
   other operand at every grid point, on operands narrowed to bf16, accumulating in f32 from zero. The reference computes
   the same three products by the host's dot_general and shares every other host operation with the kernel program.

   Over the extended reals a change of float format is the identity, and a matrix product accumulated from zero is the
   plain finite sum over the contracted index, whichever unit computes it; tiling the rows in blocks does not change any
   entry. So the three kernel regions leave, in their result arrays, exactly the arrays the reference's dot_generals
   produce (Proof/KIValue0..2), and the rest of the two programs is one and the same chain of host operations applied to
   equal arrays (Proof/KIBridge). No algebraic law that could fail at an infinity is used: the sums are the same sums,
   term by term, so the precondition (finite inputs) is never opened.

   The frames: each pallas_call is a segment of the host program, entered with the core's unscoped buffers held whole
   and left with them at the contents after the region (Proof/KIRun for the idealized program, Proof/KRun for the
   word-level one, the same text at the other instance). The Gram region reads ONE array through two windows, each
   holding half of it (Proof/KIRegion2). The reference has no kernel: its frame is its run with the result dropped. -/
import proofs.«164775_j1236950581835_1_alg».proof.Defs
import proofs.«164775_j1236950581835_1_alg».proof.Proof.Gen.Kernel
import proofs.«164775_j1236950581835_1_alg».proof.Proof.Gen.KernelIdeal
import proofs.«164775_j1236950581835_1_alg».proof.Proof.Gen.ReferenceIdeal
import proofs.«164775_j1236950581835_1_alg».proof.Proof.Gen.Pre_finite_inputs
import proofs.«164775_j1236950581835_1_alg».proof.Proof.Gen.ReferenceIdeal.Run
import proofs.«164775_j1236950581835_1_alg».proof.Proof.KRun
import proofs.«164775_j1236950581835_1_alg».proof.Proof.KIRun
import proofs.«164775_j1236950581835_1_alg».proof.Proof.KIValue0
import proofs.«164775_j1236950581835_1_alg».proof.Proof.KIValue1
import proofs.«164775_j1236950581835_1_alg».proof.Proof.KIValue2
import proofs.«164775_j1236950581835_1_alg».proof.Proof.KIBridge
import Idealize.ShloMosaic.Adequacy
import Idealize.ShloMosaic.Init

noncomputable section

namespace Cert.Proof

open Idealize.ShloMosaic Idealize.SL.Sem

/-- The word-level program runs to the end, faults nowhere and keeps its arguments. -/
theorem frame_k : Cert.frame_Kernel := fun m ρ _ => Cert.Kernel.Run.frame (F := Bits) m ρ

/-- So does the idealized program. -/
theorem frame_ki : Cert.frame_KernelIdeal := fun m ρ _ => Cert.KernelIdeal.Run.frame (F := Ideal) m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the same result array: the kernel program's is the last contents of its chain at the result
    reference, the reference's is its composed term, and the two are one function of arguments that agree. -/
theorem algebraic : Cert.algebraic_KernelIdeal_ReferenceIdeal := by
  intro m ρ m' ρ' _ hagree
  refine ⟨fun c => Cert.KernelIdeal.Run.X6 (F := Ideal) m c (Proc.devRef .tc Cert.KernelIdeal.main_v93),
    Cert.KernelIdeal.Run.run_value (F := Ideal) m ρ, ?_⟩
  refine (θ_run Cert.ReferenceIdeal.defs _ _).mono (fun _ h c => ⟨(h c).1.trans ?_, (h c).2⟩)
    (Cert.ReferenceIdeal.Value.run (F := Ideal) m' ρ')
  exact (Cert.KernelIdeal.Bridge.result_eq m m' (Cert.KernelIdeal.Run.o1 m) Cert.KernelIdeal.Run.o4 Cert.KernelIdeal.Run.o6
    (fun c => Cert.KernelIdeal.Value0.final (Cert.KernelIdeal.Chain.X0r m) c)
    (fun V c => Cert.KernelIdeal.Value1.final V c)
    (fun V c => Cert.KernelIdeal.Value2.final V c) c (hagree c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
